-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128x16 .f32) (main_arg7 : FVec F S16 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x16 .f32 := Host.absf main_arg6
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S128x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S100000x1 : Shape := ⟨2, ![100000, 1]⟩
abbrev S64x128 : Shape := ⟨2, ![64, 128]⟩
abbrev S1x64 : Shape := ⟨2, ![1, 64]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 88
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S128x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S1x128, .f32⟩
  | .hbm, ⟨28, _⟩ => ⟨S128, .f32⟩
  | .hbm, ⟨29, _⟩ => ⟨S1x128x128, .f32⟩
  | .hbm, ⟨30, _⟩ => ⟨S128x128, .f32⟩
  | .hbm, ⟨31, _⟩ => ⟨S1x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S100000x128, .f32⟩
  | .hbm, ⟨75, _⟩ => ⟨S100000x1, .i32⟩
  | .hbm, ⟨76, _⟩ => ⟨S64x128, .f32⟩
  | .hbm, ⟨77, _⟩ => ⟨S1x64, .f32⟩
  | .hbm, ⟨78, _⟩ => ⟨S64x1, .f32⟩
  | .hbm, ⟨79, _⟩ => ⟨S_, .f32⟩
  | .hbm, ⟨80, _⟩ => ⟨S64x1, .f32⟩
  | .hbm, ⟨81, _⟩ => ⟨S64x1, .f32⟩
  | .hbm, ⟨82, _⟩ => ⟨S64x128, .f32⟩
  | .hbm, ⟨83, _⟩ => ⟨S64x128, .f32⟩
  | .hbm, ⟨84, _⟩ => ⟨S64x16, .f32⟩
  | .hbm, ⟨85, _⟩ => ⟨S1x16, .f32⟩
  | .hbm, ⟨86, _⟩ => ⟨S64x16, .f32⟩
  | .hbm, ⟨87, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .i32⟩
  | .local _ .vmem, ⟨30, _⟩ => ⟨S5000x1, .i32⟩
  | .local _ .vmem, ⟨31, _⟩ => ⟨S64x128, .f32⟩
  | .local _ .vmem, ⟨32, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59_0 : Ref sig .tc := ⟨.hbm, 76, rfl⟩
abbrev main_v59_1 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000_S100000x1 : S100000.ShapeCasts S100000x1
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  reduces_S5000x64_S64 : S5000x64.Reduces [0] S64
  shapeCasts_S64_S1x64 : S64.ShapeCasts S1x64
  shapeCasts_S1x64_S1x64 : S1x64.ShapeCasts S1x64
  shapeCasts_S1x64_S64x1 : S1x64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59_0) S64x128.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59_1) S1x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S128x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128x128, .f32⟩
  | .hbm, ⟨54, _⟩ => ⟨S128x128, .f32⟩
  | .hbm, ⟨55, _⟩ => ⟨S100000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128x128, .f32⟩
  | .hbm, ⟨62, _⟩ => ⟨S128x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S100000x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S64x128, .f32⟩
  | .hbm, ⟨98, _⟩ => ⟨S100000x1, .i32⟩
  | .hbm, ⟨99, _⟩ => ⟨S64x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S64, .f32⟩
  | .hbm, ⟨104, _⟩ => ⟨S100000x1, .i32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x128, .f32⟩
  | .hbm, ⟨111, _⟩ => ⟨S64x128, .f32⟩
  | .hbm, ⟨112, _⟩ => ⟨S64x16, .f32⟩
  | .hbm, ⟨113, _⟩ => ⟨S1x16, .f32⟩
  | .hbm, ⟨114, _⟩ => ⟨S64x16, .f32⟩
  | .hbm, ⟨115, _⟩ => ⟨S64x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_v49 : Ref sig .tc := ⟨.hbm, 67, rfl⟩
abbrev main_c_4 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_call2_cst : Ref sig .tc := ⟨.hbm, 93, rfl⟩
abbrev main_call2_v0 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_10 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x16_S64x16_1_0_0_1_n_n_wf : DotDims.WF S64x128 S128x16 S64x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Spec.lean ====
/-
  What both programs compute, as ONE function of the eight argument arrays, at the ideal instance (floats are
  extended reals, every operation exact).

  A graph of 100000 nodes with 128 features each, 1600000 directed edges (a source row and a destination row of
  node ids), and a graph id per node.  Three rounds of message passing: the NEIGHBOUR SUM of node `i` is the sum of
  the feature rows of the sources of the edges that point at `i` (a source id below zero is read once wrapped by
  100000; an edge whose destination id is outside the node range adds to nothing), and a round replaces the features
  by `max(A·W_rel + X·W_root + b, 0)`, `A` the neighbour sums and `X` the features.  Then the features are summed
  per graph id over the 64 graphs, together with each graph's node count; a node whose graph id is outside
  `0 … 63` is counted nowhere.  The per-graph sums are divided by `max(count, 1)` and sent through one more
  affine map to 16 classes.

  The edge gather and scatter, the slices of the stacked weights and the last affine map are stated as the host
  operations both programs apply; a round and the per-graph sums are stated index by index, since the two programs
  arrange them differently (blocks of 5000 nodes and a one-hot product on one side, whole-array products and a
  scatter on the other).
-/
import proofs.«415848_j10471130267877_1_alg».proof.KernelIdeal
import proofs.«415848_j10471130267877_1_alg».proof.Proof.Gen.KernelIdeal
import Idealize.ShloMosaic.PureOps.Ideal
import Idealize.ShloMosaic.Lib.ValueIdx

noncomputable section

namespace Cert.Spec

open Idealize.ShloMosaic Idealize.ShloMosaic.ValueIdx Cert.KernelIdeal Cert.KernelIdeal.Gen
open scoped BigOperators

/-- Node features: 100000 rows of 128 extended reals. -/
abbrev Nodes := FVec Ideal S100000x128 .f32

/-- The edges' source ids: row 0 of the edge array. -/
def edgeSrc (ei : IVec S2x1600000 32) : IVec S1600000 32 :=
  shapeCast _ (extractStridedSlice S1x1600000 ![0, 0] ei slices_S2x1600000_S1x1600000_0_0) shapeCasts_S1x1600000_S1600000

/-- The edges' destination ids: row 1 of the edge array. -/
def edgeDst (ei : IVec S2x1600000 32) : IVec S1600000 32 :=
  shapeCast _ (extractStridedSlice S1x1600000 ![1, 0] ei slices_S2x1600000_S1x1600000_1_0) shapeCasts_S1x1600000_S1600000

/-- The neighbour sums of the features `X`: each edge's source row (a negative id wrapped once by 100000) gathered,
    then added into its destination's row, starting from zero. -/
def agg (src dst : IVec S1600000 32) (X : Nodes) : Nodes :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Round 0's 128×128 matrix out of a stack of three. -/
def mat0 (w : FVec Ideal S3x128x128 .f32) : FVec Ideal S128x128 .f32 :=
  shapeCast _ (extractStridedSlice S1x128x128 ![0, 0, 0] w slices_S3x128x128_S1x128x128_0_0_0) shapeCasts_S1x128x128_S128x128
/-- Round 1's matrix. -/
def mat1 (w : FVec Ideal S3x128x128 .f32) : FVec Ideal S128x128 .f32 :=
  shapeCast _ (extractStridedSlice S1x128x128 ![1, 0, 0] w slices_S3x128x128_S1x128x128_1_0_0) shapeCasts_S1x128x128_S128x128
/-- Round 2's matrix. -/
def mat2 (w : FVec Ideal S3x128x128 .f32) : FVec Ideal S128x128 .f32 :=
  shapeCast _ (extractStridedSlice S1x128x128 ![2, 0, 0] w slices_S3x128x128_S1x128x128_2_0_0) shapeCasts_S1x128x128_S128x128

/-- Round 0's bias, as one row of 128. -/
def row0 (b : FVec Ideal S3x128 .f32) : FVec Ideal S1x128 .f32 :=
  shapeCast _ (shapeCast _ (extractStridedSlice S1x128 ![0, 0] b slices_S3x128_S1x128_0_0) shapeCasts_S1x128_S128) shapeCasts_S128_S1x128
/-- Round 1's bias row. -/
def row1 (b : FVec Ideal S3x128 .f32) : FVec Ideal S1x128 .f32 :=
  shapeCast _ (shapeCast _ (extractStridedSlice S1x128 ![1, 0] b slices_S3x128_S1x128_1_0) shapeCasts_S1x128_S128) shapeCasts_S128_S1x128
/-- Round 2's bias row. -/
def row2 (b : FVec Ideal S3x128 .f32) : FVec Ideal S1x128 .f32 :=
  shapeCast _ (shapeCast _ (extractStridedSlice S1x128 ![2, 0] b slices_S3x128_S1x128_2_0) shapeCasts_S1x128_S128) shapeCasts_S128_S1x128

/-- One entry of a round: `max((∑ₖ A[p,k]·Wr[k,q] + ∑ₖ X[p,k]·Wo[k,q]) + b[q], 0)`. -/
def layerAt (A X : Nodes) (Wr : FVec Ideal S128x128 .f32) (b : FVec Ideal S1x128 .f32) (Wo : FVec Ideal S128x128 .f32)
    (p : Fin 100000) (q : Fin 128) : EReal :=
  max (((∑ k : Fin 128, A (ix2 p k) * Wr (ix2 k q)) + (∑ k : Fin 128, X (ix2 p k) * Wo (ix2 k q))) + b (ix2 (0 : Fin 1) q)) 0

/-- A round of message passing, as a whole array. -/
def layer (A X : Nodes) (Wr : FVec Ideal S128x128 .f32) (b : FVec Ideal S1x128 .f32) (Wo : FVec Ideal S128x128 .f32) : Nodes :=
  fun i => layerAt A X Wr b Wo (i 0) (i 1)

/-- Whether a node's graph id, read signed, is the graph `g`: one or zero. -/
def hot (v : BitVec 32) (g : Fin 64) : EReal := if v.toInt = (g.val : Int) then 1 else 0

/-- The per-graph feature sums: entry `(g, d)` adds feature `d` of every node whose graph id is `g`. -/
def sums (X : Nodes) (bt : IVec S100000x1 32) : FVec Ideal S64x128 .f32 :=
  fun i => ∑ n : Fin 100000, hot (bt (ix2 n (0 : Fin 1))) (i 0) * X (ix2 n (i 1))

/-- The per-graph node counts, as one row of 64. -/
def cnts (bt : IVec S100000x1 32) : FVec Ideal S1x64 .f32 :=
  fun i => ∑ n : Fin 100000, hot (bt (ix2 n (0 : Fin 1))) (i 1)

/-- The graph ids as a column. -/
def idCol (bt : IVec S100000 32) : IVec S100000x1 32 := shapeCast _ bt shapeCasts_S100000_S100000x1

/-- The mean per graph (sums over `max(count, 1)`) through the last affine map to 16 classes. -/
def head (S : FVec Ideal S64x128 .f32) (C : FVec Ideal S1x64 .f32) (lw : FVec Ideal S128x16 .f32) (lb : FVec Ideal S16 .f32) :
    FVec Ideal S64x16 .f32 :=
  addf
    (Host.dotGeneral dot_S64x128_S128x16_S64x16_1_0_0_1_n_n none
      (Host.divf S (broadcastInDim S64x128 ![0, 1] bcast_S64x1_S64x128_0_1
        (maximumf (shapeCast _ C shapeCasts_S1x64_S64x1) (broadcastInDim S64x1 ![] bcast_S_S64x1 (constant S_ .f32 0x3F800000#32)))))
      lw)
    (broadcastInDim S64x16 ![0, 1] bcast_S1x16_S64x16_0_1 (broadcastInDim S1x16 ![1] bcast_S16_S1x16_1 lb))

/-- The features after round 0, 1, 2. -/
def feat1 (x : Nodes) (ei : IVec S2x1600000 32) (wr : FVec Ideal S3x128x128 .f32) (b : FVec Ideal S3x128 .f32)
    (wo : FVec Ideal S3x128x128 .f32) : Nodes :=
  layer (agg (edgeSrc ei) (edgeDst ei) x) x (mat0 wr) (row0 b) (mat0 wo)
def feat2 (x : Nodes) (ei : IVec S2x1600000 32) (wr : FVec Ideal S3x128x128 .f32) (b : FVec Ideal S3x128 .f32)
    (wo : FVec Ideal S3x128x128 .f32) : Nodes :=
  layer (agg (edgeSrc ei) (edgeDst ei) (feat1 x ei wr b wo)) (feat1 x ei wr b wo) (mat1 wr) (row1 b) (mat1 wo)
def feat3 (x : Nodes) (ei : IVec S2x1600000 32) (wr : FVec Ideal S3x128x128 .f32) (b : FVec Ideal S3x128 .f32)
    (wo : FVec Ideal S3x128x128 .f32) : Nodes :=
  layer (agg (edgeSrc ei) (edgeDst ei) (feat2 x ei wr b wo)) (feat2 x ei wr b wo) (mat2 wr) (row2 b) (mat2 wo)

/-- The whole computation: the 64×16 class scores. -/
def out (x : Nodes) (ei : IVec S2x1600000 32) (bt : IVec S100000 32) (wr : FVec Ideal S3x128x128 .f32)
    (b : FVec Ideal S3x128 .f32) (wo : FVec Ideal S3x128x128 .f32) (lw : FVec Ideal S128x16 .f32) (lb : FVec Ideal S16 .f32) :
    FVec Ideal S64x16 .f32 :=
  head (sums (feat3 x ei wr b wo) (idCol bt)) (cnts (idCol bt)) lw lb

end Cert.Spec

end
-- ==== Proof.Boundary.lean ====
/-
  What the later parts of the program still read of the arguments at a boundary between two of its parts: the two rows
  of edge ids (computed once, before the first round, and read again before every round), the graph ids, the three
  stacked parameter arrays and the last affine map's two. No part of the program writes any of them.
-/
import proofs.«415848_j10471130267877_1_alg».proof.Proof.Gen.KernelIdeal.Frame
import proofs.«415848_j10471130267877_1_alg».proof.Proof.Spec

noncomputable section

namespace Cert.KernelIdeal.Stages

open Idealize.ShloMosaic Idealize.ShloMosaic.TcCoe Idealize.ShloMosaic.ValueIdx Idealize.SL.Sem Cert.KernelIdeal Cert.KernelIdeal.Gen
open scoped BigOperators

/-- The buffers a boundary's contents `W` still hold for later parts. -/
structure Kept (W : Valuation τ sig (Elt Ideal)) (ei : IVec S2x1600000 32) (bt : IVec S100000 32)
    (wr : FVec Ideal S3x128x128 .f32) (b : FVec Ideal S3x128 .f32) (wo : FVec Ideal S3x128x128 .f32)
    (lw : FVec Ideal S128x16 .f32) (lb : FVec Ideal S16 .f32) : Prop where
  src : W (Proc.devRef .tc main_v1) = Spec.edgeSrc ei
  dst : W (Proc.devRef .tc main_v3) = Spec.edgeDst ei
  a2 : W (Proc.devRef .tc main_arg2) = bt
  a3 : W (Proc.devRef .tc main_arg3) = wr
  a4 : W (Proc.devRef .tc main_arg4) = b
  a5 : W (Proc.devRef .tc main_arg5) = wo
  a6 : W (Proc.devRef .tc main_arg6) = lw
  a7 : W (Proc.devRef .tc main_arg7) = lb

end Cert.KernelIdeal.Stages

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LayerBlock.lean ====
/-
  One block of a round of message passing: the body of the dense kernel, read at an entry.
  For a block of 5000 nodes, entry (p, q) of what the body stores is
  max((∑ₖ a[p,k]·wr[k,q] + ∑ₖ x[p,k]·wo[k,q]) + b[q], 0): the two matrix products start from a zero accumulator, so each
  is the plain sum over the 128 contracted coordinates; the narrowing of the operands to a shorter float format is the
  identity on extended reals; the bias row is repeated down the block.
-/
import proofs.«415848_j10471130267877_1_alg».proof.Proof.Gen.KernelIdeal.Skeleton
import proofs.«415848_j10471130267877_1_alg».proof.Proof.Spec
import proofs.«415848_j10471130267877_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerBlock

open Idealize.ShloMosaic Idealize.ShloMosaic.TcCoe Idealize.ShloMosaic.ValueIdx Idealize.SL.Sem Cert.KernelIdeal Cert.KernelIdeal.Gen
open scoped BigOperators

/-- Entry (p, q) of a round on one block of 5000 nodes. -/
def blockAt (a x : FVec Ideal S5000x128 .f32) (wr : FVec Ideal S128x128 .f32) (b : FVec Ideal S1x128 .f32)
    (wo : FVec Ideal S128x128 .f32) (p : Fin 5000) (q : Fin 128) : EReal :=
  max (((∑ k : Fin 128, a (ix2 p k) * wr (ix2 k q)) + (∑ k : Fin 128, x (ix2 p k) * wo (ix2 k q))) + b (ix2 (0 : Fin 1) q)) 0

/-- One product of the body, into the zero accumulator, read at an entry: the plain sum over the 128 contracted
    coordinates. The body's dimension record is the rows-by-columns record of a 5000 × 128 by 128 × 128 product. -/
private theorem prod_apply (l : FVec Ideal S5000x128 .bf16) (r : FVec Ideal S128x128 .bf16) (p : Fin 5000) (q : Fin 128) :
    matmul (F := Ideal) dot_S5000x128_S128x128_S5000x128_1_0_0_1_n_n none l r
        (constant (F := Ideal) S5000x128 .f32 0x00000000#32) (ix2 p q)
      = ∑ k : Fin 128, l (ix2 p k) * r (ix2 k q) :=
  Cert.GNN.matmul_plain_zero_apply (M := 5000) (K := 128) (N := 128) none l r p q

/-- The body's arithmetic once the identity re-layouts are gone, read at an entry. -/
private theorem body_apply (l1 l2 : FVec Ideal S5000x128 .bf16) (r1 r2 : FVec Ideal S128x128 .bf16) (b : FVec Ideal S1x128 .f32)
    (p : Fin 5000) (q : Fin 128) :
    maximumf
        (addf
          (addf
            (matmul (F := Ideal) dot_S5000x128_S128x128_S5000x128_1_0_0_1_n_n none l1 r1 (constant (F := Ideal) S5000x128 .f32 0x00000000#32))
            (matmul (F := Ideal) dot_S5000x128_S128x128_S5000x128_1_0_0_1_n_n none l2 r2 (constant (F := Ideal) S5000x128 .f32 0x00000000#32)))
          (broadcastTo S5000x128 b broadcasts_S1x128_S5000x128))
        (broadcast S5000x128 (Scalar.ofBits (F := Ideal) .f32 0x00000000#32)) (ix2 p q)
      = max (((∑ k : Fin 128, l1 (ix2 p k) * r1 (ix2 k q)) + (∑ k : Fin 128, l2 (ix2 p k) * r2 (ix2 k q))) + b (ix2 (0 : Fin 1) q)) 0 := by
  rw [maximumf_apply, addf_apply, addf_apply, broadcast_apply, prod_apply, prod_apply,
    broadcastTo_1b_ab_apply b broadcasts_S1x128_S5000x128 p q]
  exact congrArg (max _) Ideal.ofBits_zero_f32

/-- Round 0's body stores `blockAt` at every entry. -/
theorem pay0_apply (a x : FVec Ideal S5000x128 .f32) (wr wo : FVec Ideal S128x128 .f32) (b : FVec Ideal S1x128 .f32)
    (p : Fin 5000) (q : Fin 128) : k0_pay1 (F := Ideal) a x wr wo b (ix2 p q) = blockAt a x wr b wo p q := by
  unfold k0_pay1
  simp only [shapeCast_self]
  exact body_apply _ _ _ _ b p q

/-- Round 1's body stores `blockAt` at every entry. -/
theorem pay1_apply (a x : FVec Ideal S5000x128 .f32) (wr wo : FVec Ideal S128x128 .f32) (b : FVec Ideal S1x128 .f32)
    (p : Fin 5000) (q : Fin 128) : k1_pay1 (F := Ideal) a x wr wo b (ix2 p q) = blockAt a x wr b wo p q := by
  unfold k1_pay1
  simp only [shapeCast_self]
  exact body_apply _ _ _ _ b p q

/-- Round 2's body stores `blockAt` at every entry. -/
theorem pay2_apply (a x : FVec Ideal S5000x128 .f32) (wr wo : FVec Ideal S128x128 .f32) (b : FVec Ideal S1x128 .f32)
    (p : Fin 5000) (q : Fin 128) : k2_pay1 (F := Ideal) a x wr wo b (ix2 p q) = blockAt a x wr b wo p q := by
  unfold k2_pay1
  simp only [shapeCast_self]
  exact body_apply _ _ _ _ b p q

end Cert.KernelIdeal.LayerBlock

end
-- ==== Proof.Region0.lean ====
/-
  Round 0 of message passing as a whole array: the dense kernel runs over 20 blocks of 5000 nodes; block t of the
  result is rows 5000·t … 5000·t + 4999, computed from the same rows of the neighbour sums and of the features and from
  the whole weight matrices and bias row; the 20 blocks tile the 100000 rows, so the array after the run is the round's
  function of the arrays the kernel was entered with.
-/
import proofs.«415848_j10471130267877_1_alg».proof.Proof.Gen.KernelIdeal.Frame
import proofs.«415848_j10471130267877_1_alg».proof.Proof.LayerBlock
import proofs.«415848_j10471130267877_1_alg».proof.Proof.Spec
import Idealize.ShloMosaic.Lib.Pipeline.Value
import Idealize.ShloMosaic.Lib.ValueIdx

noncomputable section

namespace Cert.KernelIdeal.Region0

open Idealize.ShloMosaic Idealize.ShloMosaic.TcCoe Idealize.ShloMosaic.ValueIdx Idealize.SL.Sem Cert.KernelIdeal Cert.KernelIdeal.Gen Cert.KernelIdeal.LayerBlock
open Idealize.ShloMosaic.Pipeline (Dat)
open scoped BigOperators

variable (V : (c : Dev nD) → (b : Ref sig .tc) → Buf (Elt Ideal) ((c : Thread nD τ).loc b))

/-- Both spellings of the zero offset of a rectangle that is a whole buffer. -/
theorem zero_off : (![0, 0] : Fin 2 → Nat) = fun _ => 0 := funext fun a => by fin_cases a <;> rfl

/-- The block each window is at, at each of the 20 points: the neighbour sums, the features and the result move down
    the rows one block per point; the two weight matrices and the bias row stay at their only block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body on a block of 5000 rows that are rows `n·5000 + p` of the arrays `A` and `X` (`e` places an entry of the
    block in the array): entry `(p, q)` of what it stores is the round at row `n·5000 + p`, column `q`, since that entry
    reads row `p` of the two blocks only, and the weights and the bias whole. -/
theorem block_eq (A X : Spec.Nodes) (Wr Wo : FVec Ideal S128x128 .f32) (b : FVec Ideal S1x128 .f32)
    (a x : FVec Ideal S5000x128 .f32) (e : S5000x128.Idx → S100000x128.Idx) (n : Nat)
    (he0 : ∀ y, ((e y) 0).val = n * 5000 + (y 0).val) (he1 : ∀ y, ((e y) 1).val = (y 1).val)
    (ha : ∀ y, a y = A (e y)) (hx : ∀ y, x y = X (e y)) :
    k0_pay1 (F := Ideal) a x Wr Wo b = fun y => Spec.layer A X Wr b Wo (e y) := by
  funext y
  obtain ⟨p, q, rfl⟩ : ∃ (p : Fin 5000) (q : Fin 128), y = ix2 p q := ⟨y 0, y 1, eq_ix2 y⟩
  rw [pay0_apply]
  obtain ⟨P, hrow⟩ : ∃ P : Fin 100000, ∀ k : Fin 128, e (ix2 p k) = ix2 P k :=
    ⟨e (ix2 p q) 0, fun k => Shape.idx_ext₂ ((he0 (ix2 p k)).trans (he0 (ix2 p q)).symm) (he1 (ix2 p k))⟩
  show blockAt a x Wr b Wo p q = Spec.layerAt A X Wr b Wo (e (ix2 p q) 0) (e (ix2 p q) 1)
  rw [hrow q]
  show blockAt a x Wr b Wo p q = Spec.layerAt A X Wr b Wo P q
  unfold blockAt Spec.layerAt
  simp only [ha, hx, hrow]

/-- The window over the whole first weight matrix holds that matrix at every point. -/
theorem wrel_blk (c : Dev nD) (t : Fin cfg0.N) : (iblk0 V c 2 t : FVec Ideal S128x128 .f32) = V c main_v15 := by
  obtain ⟨-, -, -, -, e0, e1, -⟩ := idx_facts t
  funext y
  show V c main_v15 (((cfg0.win 2).blk t).view.emb y) = V c main_v15 y
  refine congrArg (V c main_v15) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The window over the bias row holds that row at every point. -/
theorem bias_blk (c : Dev nD) (t : Fin cfg0.N) : (iblk0 V c 3 t : FVec Ideal S1x128 .f32) = V c main_v20 := by
  obtain ⟨-, -, -, -, -, -, e0, e1, -⟩ := idx_facts t
  funext y
  show V c main_v20 (((cfg0.win 3).blk t).view.emb y) = V c main_v20 y
  refine congrArg (V c main_v20) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The window over the whole second weight matrix holds that matrix at every point. -/
theorem wroot_blk (c : Dev nD) (t : Fin cfg0.N) : (iblk0 V c 4 t : FVec Ideal S128x128 .f32) = V c main_v19 := by
  obtain ⟨-, -, -, -, -, -, -, -, e0, e1, -⟩ := idx_facts t
  funext y
  show V c main_v19 (((cfg0.win 4).blk t).view.emb y) = V c main_v19 y
  refine congrArg (V c main_v19) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What point `t` writes back is block `t` of the round of the arrays: the blocks of the neighbour sums and of the
    features at `t` are the rows the result's block at `t` covers, an entry of a block sitting in its array at the
    block's number times the block's extent plus the entry's own coordinate. -/
theorem flushed_eq (c : Dev nD) (t : Fin cfg0.N) :
    (dat0 (F := Ideal) V c).flushed 5 t = ((cfg0.win 5).blk t).view.read (Elt Ideal)
      (Spec.layer (V c main_v13) (V c main_arg0) (V c main_v15) (V c main_v20) (V c main_v19)) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S128x128) zero_off,
    View.ld_unit_zero (S := S1x128) zero_off]
  rw [wrel_blk V c t, bias_blk V c t, wroot_blk V c t]
  obtain ⟨a0, a1, x0, x1, -, -, -, -, -, -, o0, o1⟩ := idx_facts t
  funext y
  show k0_pay1 (F := Ideal) (iblk0 V c 0 t) (iblk0 V c 1 t) (V c main_v15) (V c main_v19) (V c main_v20) y
    = Spec.layer (V c main_v13) (V c main_arg0) (V c main_v15) (V c main_v20) (V c main_v19) (((cfg0.win 5).blk t).view.emb y)
  refine congrFun (block_eq (V c main_v13) (V c main_arg0) (V c main_v15) (V c main_v19) (V c main_v20)
    (iblk0 V c 0 t) (iblk0 V c 1 t) (((cfg0.win 5).blk t).view.emb) t.val ?_ ?_ ?_ ?_) y
  · intro z
    show win0_5.index t (0 : Fin 2) * 5000 + 1 * (z 0).val = t.val * 5000 + (z 0).val
    omega
  · intro z
    show win0_5.index t (1 : Fin 2) * 128 + 1 * (z 1).val = (z 1).val
    omega
  · intro z
    show V c main_v13 (((cfg0.win 0).blk t).view.emb z) = V c main_v13 (((cfg0.win 5).blk t).view.emb z)
    refine congrArg (V c main_v13) (funext fun a => Fin.ext ?_)
    match a with
    | ⟨0, _⟩ =>
      show win0_0.index t (0 : Fin 2) * 5000 + 1 * (z 0).val = win0_5.index t (0 : Fin 2) * 5000 + 1 * (z 0).val
      omega
    | ⟨1, _⟩ =>
      show win0_0.index t (1 : Fin 2) * 128 + 1 * (z 1).val = win0_5.index t (1 : Fin 2) * 128 + 1 * (z 1).val
      omega
  · intro z
    show V c main_arg0 (((cfg0.win 1).blk t).view.emb z) = V c main_arg0 (((cfg0.win 5).blk t).view.emb z)
    refine congrArg (V c main_arg0) (funext fun a => Fin.ext ?_)
    match a with
    | ⟨0, _⟩ =>
      show win0_1.index t (0 : Fin 2) * 5000 + 1 * (z 0).val = win0_5.index t (0 : Fin 2) * 5000 + 1 * (z 0).val
      omega
    | ⟨1, _⟩ =>
      show win0_1.index t (1 : Fin 2) * 128 + 1 * (z 1).val = win0_5.index t (1 : Fin 2) * 128 + 1 * (z 1).val
      omega

/-- An entry of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v21).slice (win0_5.rect t)).set ↔ _
  rw [View.set_slice_whole, Rect.mem_set_unit]
  exact Iff.rfl

/-- Row `r` lies in block `r / 5000`: the 20 blocks of 5000 rows tile the 100000 rows. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, o0, o1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The result array of round 0's kernel, entered at the contents `V`, is the round of the arrays it reads. -/
theorem out_eq (c : Dev nD) :
    (dat0 (F := Ideal) V c).arrAt 5 cfg0.N
      = Spec.layer (V c main_v13) (V c main_arg0) (V c main_v15) (V c main_v20) (V c main_v19) := by
  exact (dat0 (F := Ideal) V c).arrAt_eq_of_cover 5
    (Spec.layer (V c main_v13) (V c main_arg0) (V c main_v15) (V c main_v20) (V c main_v19))
    (fun t _ => flushed_eq V c t) cover

end Cert.KernelIdeal.Region0

end
-- ==== Proof.Stage1.lean ====
/-
  From the launch to the end of round 0: the host computes the edge ids, the neighbour sums of the input features and
  round 0's slices of the parameters; the dense kernel then leaves round 0's features. Nothing else that is read later
  changes.
-/
import proofs.«415848_j10471130267877_1_alg».proof.Proof.Gen.KernelIdeal.Frame
import proofs.«415848_j10471130267877_1_alg».proof.Proof.Boundary
import proofs.«415848_j10471130267877_1_alg».proof.Proof.Spec
import Idealize.ShloMosaic.Lib.StableHlo.Run
import proofs.«415848_j10471130267877_1_alg».proof.Proof.Region0

noncomputable section

namespace Cert.KernelIdeal.Stages

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (ρ : Dev nD → PrngReg) (c : Dev nD)

/-! ## What the first host stretch leaves

The stretch writes only its own intermediate buffers, so every argument is still what the launch memory holds; each
buffer it writes holds the composition of its operations over the arguments, which is the specification's term. -/

/-- A buffer the first host stretch does not write is as launched. -/
local macro "first_stretch_keeps" : tactic =>
  `(tactic| exact StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

private theorem entry_arg0 :
    W1 (F := Ideal) m ρ c (Proc.devRef .tc main_arg0) = m ((c.tc : Thread nD τ).loc main_arg0) :=
  (show W1 (F := Ideal) m ρ c (Proc.devRef .tc main_arg0) = W0 m ρ c (Proc.devRef .tc main_arg0) by
    first_stretch_keeps).trans rfl
private theorem entry_arg2 :
    W1 (F := Ideal) m ρ c (Proc.devRef .tc main_arg2) = m ((c.tc : Thread nD τ).loc main_arg2) :=
  (show W1 (F := Ideal) m ρ c (Proc.devRef .tc main_arg2) = W0 m ρ c (Proc.devRef .tc main_arg2) by
    first_stretch_keeps).trans rfl
private theorem entry_arg3 :
    W1 (F := Ideal) m ρ c (Proc.devRef .tc main_arg3) = m ((c.tc : Thread nD τ).loc main_arg3) :=
  (show W1 (F := Ideal) m ρ c (Proc.devRef .tc main_arg3) = W0 m ρ c (Proc.devRef .tc main_arg3) by
    first_stretch_keeps).trans rfl
private theorem entry_arg4 :
    W1 (F := Ideal) m ρ c (Proc.devRef .tc main_arg4) = m ((c.tc : Thread nD τ).loc main_arg4) :=
  (show W1 (F := Ideal) m ρ c (Proc.devRef .tc main_arg4) = W0 m ρ c (Proc.devRef .tc main_arg4) by
    first_stretch_keeps).trans rfl
private theorem entry_arg5 :
    W1 (F := Ideal) m ρ c (Proc.devRef .tc main_arg5) = m ((c.tc : Thread nD τ).loc main_arg5) :=
  (show W1 (F := Ideal) m ρ c (Proc.devRef .tc main_arg5) = W0 m ρ c (Proc.devRef .tc main_arg5) by
    first_stretch_keeps).trans rfl
private theorem entry_arg6 :
    W1 (F := Ideal) m ρ c (Proc.devRef .tc main_arg6) = m ((c.tc : Thread nD τ).loc main_arg6) :=
  (show W1 (F := Ideal) m ρ c (Proc.devRef .tc main_arg6) = W0 m ρ c (Proc.devRef .tc main_arg6) by
    first_stretch_keeps).trans rfl
private theorem entry_arg7 :
    W1 (F := Ideal) m ρ c (Proc.devRef .tc main_arg7) = m ((c.tc : Thread nD τ).loc main_arg7) :=
  (show W1 (F := Ideal) m ρ c (Proc.devRef .tc main_arg7) = W0 m ρ c (Proc.devRef .tc main_arg7) by
    first_stretch_keeps).trans rfl

/-- The source ids: row 0 of the edge array. -/
private theorem entry_src :
    W1 (F := Ideal) m ρ c (Proc.devRef .tc main_v1) = Spec.edgeSrc (m ((c.tc : Thread nD τ).loc main_arg1)) := by
  show StableHlo.after hostOps0 _ (Proc.devRef .tc main_v1) = _
  after_results
  rfl

/-- The destination ids: row 1 of the edge array. -/
private theorem entry_dst :
    W1 (F := Ideal) m ρ c (Proc.devRef .tc main_v3) = Spec.edgeDst (m ((c.tc : Thread nD τ).loc main_arg1)) := by
  show StableHlo.after hostOps0 _ (Proc.devRef .tc main_v3) = _
  after_results
  rfl

/-- The neighbour sums of the input features. -/
private theorem entry_agg :
    W1 (F := Ideal) m ρ c (Proc.devRef .tc main_v13)
      = Spec.agg (Spec.edgeSrc (m ((c.tc : Thread nD τ).loc main_arg1))) (Spec.edgeDst (m ((c.tc : Thread nD τ).loc main_arg1)))
          (m ((c.tc : Thread nD τ).loc main_arg0)) := by
  show StableHlo.after hostOps0 _ (Proc.devRef .tc main_v13) = _
  after_results_simp
  rfl

/-- Round 0's matrix for the neighbour sums. -/
private theorem entry_wrel :
    W1 (F := Ideal) m ρ c (Proc.devRef .tc main_v15) = Spec.mat0 (m ((c.tc : Thread nD τ).loc main_arg3)) := by
  show StableHlo.after hostOps0 _ (Proc.devRef .tc main_v15) = _
  after_results
  rfl

/-- Round 0's matrix for the features. -/
private theorem entry_wroot :
    W1 (F := Ideal) m ρ c (Proc.devRef .tc main_v19) = Spec.mat0 (m ((c.tc : Thread nD τ).loc main_arg5)) := by
  show StableHlo.after hostOps0 _ (Proc.devRef .tc main_v19) = _
  after_results
  rfl

/-- Round 0's bias row. -/
private theorem entry_bias :
    W1 (F := Ideal) m ρ c (Proc.devRef .tc main_v20) = Spec.row0 (m ((c.tc : Thread nD τ).loc main_arg4)) := by
  show StableHlo.after hostOps0 _ (Proc.devRef .tc main_v20) = _
  after_results
  rfl

/-- After round 0's kernel: its result array holds the features after round 0, and what later parts read is kept. -/
theorem stage1 :
    W2 (F := Ideal) m ρ c (Proc.devRef .tc main_v21)
        = Spec.feat1 (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
      ∧ Kept (W2 (F := Ideal) m ρ c) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  refine ⟨?_, ⟨?_, ?_, ?_, ?_, ?_, ?_, ?_, ?_⟩⟩
  · -- the kernel's result array is the round of the arrays it was entered with; each of those is the stretch's term
    have hout : W2 (F := Ideal) m ρ c (Proc.devRef .tc main_v21)
        = Spec.layer (V1 m ρ c main_v13) (V1 m ρ c main_arg0) (V1 m ρ c main_v15) (V1 m ρ c main_v20) (V1 m ρ c main_v19) :=
      (W2_arr (F := Ideal) m ρ c 5).trans (Region0.out_eq (V1 m ρ) c)
    have e13 : V1 (F := Ideal) m ρ c main_v13 = _ := entry_agg m ρ c
    have e0 : V1 (F := Ideal) m ρ c main_arg0 = _ := entry_arg0 m ρ c
    have e15 : V1 (F := Ideal) m ρ c main_v15 = _ := entry_wrel m ρ c
    have e20 : V1 (F := Ideal) m ρ c main_v20 = _ := entry_bias m ρ c
    have e19 : V1 (F := Ideal) m ρ c main_v19 = _ := entry_wroot m ρ c
    rw [hout, e13, e0, e15, e20, e19]
    rfl
  · exact (W2_of_ne m ρ c main_v1 (by decide)).trans (entry_src m ρ c)
  · exact (W2_of_ne m ρ c main_v3 (by decide)).trans (entry_dst m ρ c)
  · exact (W2_of_ne m ρ c main_arg2 (by decide)).trans (entry_arg2 m ρ c)
  · exact (W2_of_ne m ρ c main_arg3 (by decide)).trans (entry_arg3 m ρ c)
  · exact (W2_of_ne m ρ c main_arg4 (by decide)).trans (entry_arg4 m ρ c)
  · exact (W2_of_ne m ρ c main_arg5 (by decide)).trans (entry_arg5 m ρ c)
  · exact (W2_of_ne m ρ c main_arg6 (by decide)).trans (entry_arg6 m ρ c)
  · exact (W2_of_ne m ρ c main_arg7 (by decide)).trans (entry_arg7 m ρ c)

end Cert.KernelIdeal.Stages

end
-- ==== Proof.Region1.lean ====
/-
  Round 1 of message passing as a whole array: the dense kernel runs over 20 blocks of 5000 nodes; block t of the
  result is rows 5000·t … 5000·t + 4999, computed from the same rows of the neighbour sums and of the features and from
  the whole weight matrices and bias row; the 20 blocks tile the 100000 rows, so the array after the run is the round's
  function of the arrays the kernel was entered with.
-/
import proofs.«415848_j10471130267877_1_alg».proof.Proof.Gen.KernelIdeal.Frame
import proofs.«415848_j10471130267877_1_alg».proof.Proof.LayerBlock
import proofs.«415848_j10471130267877_1_alg».proof.Proof.Spec
import Idealize.ShloMosaic.Lib.Pipeline.Value
import Idealize.ShloMosaic.Lib.ValueIdx

noncomputable section

namespace Cert.KernelIdeal.Region1

open Idealize.ShloMosaic Idealize.ShloMosaic.TcCoe Idealize.ShloMosaic.ValueIdx Idealize.SL.Sem Cert.KernelIdeal Cert.KernelIdeal.Gen Cert.KernelIdeal.LayerBlock
open Idealize.ShloMosaic.Pipeline (Dat)
open scoped BigOperators

variable (V : (c : Dev nD) → (b : Ref sig .tc) → Buf (Elt Ideal) ((c : Thread nD τ).loc b))

/-- Both spellings of the zero offset of a rectangle that is a whole buffer. -/
theorem zero_off : (![0, 0] : Fin 2 → Nat) = fun _ => 0 := funext fun a => by fin_cases a <;> rfl

/-- The block each window is at, at each of the 20 points: the neighbour sums, the features and the result move down
    the rows one block per point; the two weight matrices and the bias row stay at their only block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body on a block of 5000 rows that are rows `n·5000 + p` of the arrays `A` and `X` (`e` places an entry of the
    block in the array): entry `(p, q)` of what it stores is the round at row `n·5000 + p`, column `q`, since that entry
    reads row `p` of the two blocks only, and the weights and the bias whole. -/
theorem block_eq (A X : Spec.Nodes) (Wr Wo : FVec Ideal S128x128 .f32) (b : FVec Ideal S1x128 .f32)
    (a x : FVec Ideal S5000x128 .f32) (e : S5000x128.Idx → S100000x128.Idx) (n : Nat)
    (he0 : ∀ y, ((e y) 0).val = n * 5000 + (y 0).val) (he1 : ∀ y, ((e y) 1).val = (y 1).val)
    (ha : ∀ y, a y = A (e y)) (hx : ∀ y, x y = X (e y)) :
    k1_pay1 (F := Ideal) a x Wr Wo b = fun y => Spec.layer A X Wr b Wo (e y) := by
  funext y
  obtain ⟨p, q, rfl⟩ : ∃ (p : Fin 5000) (q : Fin 128), y = ix2 p q := ⟨y 0, y 1, eq_ix2 y⟩
  rw [pay1_apply]
  obtain ⟨P, hrow⟩ : ∃ P : Fin 100000, ∀ k : Fin 128, e (ix2 p k) = ix2 P k :=
    ⟨e (ix2 p q) 0, fun k => Shape.idx_ext₂ ((he0 (ix2 p k)).trans (he0 (ix2 p q)).symm) (he1 (ix2 p k))⟩
  show blockAt a x Wr b Wo p q = Spec.layerAt A X Wr b Wo (e (ix2 p q) 0) (e (ix2 p q) 1)
  rw [hrow q]
  show blockAt a x Wr b Wo p q = Spec.layerAt A X Wr b Wo P q
  unfold blockAt Spec.layerAt
  simp only [ha, hx, hrow]

/-- The window over the whole first weight matrix holds that matrix at every point. -/
theorem wrel_blk (c : Dev nD) (t : Fin cfg1.N) : (iblk1 V c 2 t : FVec Ideal S128x128 .f32) = V c main_v33 := by
  obtain ⟨-, -, -, -, e0, e1, -⟩ := idx_facts t
  funext y
  show V c main_v33 (((cfg1.win 2).blk t).view.emb y) = V c main_v33 y
  refine congrArg (V c main_v33) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The window over the bias row holds that row at every point. -/
theorem bias_blk (c : Dev nD) (t : Fin cfg1.N) : (iblk1 V c 3 t : FVec Ideal S1x128 .f32) = V c main_v38 := by
  obtain ⟨-, -, -, -, -, -, e0, e1, -⟩ := idx_facts t
  funext y
  show V c main_v38 (((cfg1.win 3).blk t).view.emb y) = V c main_v38 y
  refine congrArg (V c main_v38) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The window over the whole second weight matrix holds that matrix at every point. -/
theorem wroot_blk (c : Dev nD) (t : Fin cfg1.N) : (iblk1 V c 4 t : FVec Ideal S128x128 .f32) = V c main_v37 := by
  obtain ⟨-, -, -, -, -, -, -, -, e0, e1, -⟩ := idx_facts t
  funext y
  show V c main_v37 (((cfg1.win 4).blk t).view.emb y) = V c main_v37 y
  refine congrArg (V c main_v37) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What point `t` writes back is block `t` of the round of the arrays: the blocks of the neighbour sums and of the
    features at `t` are the rows the result's block at `t` covers, an entry of a block sitting in its array at the
    block's number times the block's extent plus the entry's own coordinate. -/
theorem flushed_eq (c : Dev nD) (t : Fin cfg1.N) :
    (dat1 (F := Ideal) V c).flushed 5 t = ((cfg1.win 5).blk t).view.read (Elt Ideal)
      (Spec.layer (V c main_v31) (V c main_v21) (V c main_v33) (V c main_v38) (V c main_v37)) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S128x128) zero_off,
    View.ld_unit_zero (S := S1x128) zero_off]
  rw [wrel_blk V c t, bias_blk V c t, wroot_blk V c t]
  obtain ⟨a0, a1, x0, x1, -, -, -, -, -, -, o0, o1⟩ := idx_facts t
  funext y
  show k1_pay1 (F := Ideal) (iblk1 V c 0 t) (iblk1 V c 1 t) (V c main_v33) (V c main_v37) (V c main_v38) y
    = Spec.layer (V c main_v31) (V c main_v21) (V c main_v33) (V c main_v38) (V c main_v37) (((cfg1.win 5).blk t).view.emb y)
  refine congrFun (block_eq (V c main_v31) (V c main_v21) (V c main_v33) (V c main_v37) (V c main_v38)
    (iblk1 V c 0 t) (iblk1 V c 1 t) (((cfg1.win 5).blk t).view.emb) t.val ?_ ?_ ?_ ?_) y
  · intro z
    show win1_5.index t (0 : Fin 2) * 5000 + 1 * (z 0).val = t.val * 5000 + (z 0).val
    omega
  · intro z
    show win1_5.index t (1 : Fin 2) * 128 + 1 * (z 1).val = (z 1).val
    omega
  · intro z
    show V c main_v31 (((cfg1.win 0).blk t).view.emb z) = V c main_v31 (((cfg1.win 5).blk t).view.emb z)
    refine congrArg (V c main_v31) (funext fun a => Fin.ext ?_)
    match a with
    | ⟨0, _⟩ =>
      show win1_0.index t (0 : Fin 2) * 5000 + 1 * (z 0).val = win1_5.index t (0 : Fin 2) * 5000 + 1 * (z 0).val
      omega
    | ⟨1, _⟩ =>
      show win1_0.index t (1 : Fin 2) * 128 + 1 * (z 1).val = win1_5.index t (1 : Fin 2) * 128 + 1 * (z 1).val
      omega
  · intro z
    show V c main_v21 (((cfg1.win 1).blk t).view.emb z) = V c main_v21 (((cfg1.win 5).blk t).view.emb z)
    refine congrArg (V c main_v21) (funext fun a => Fin.ext ?_)
    match a with
    | ⟨0, _⟩ =>
      show win1_1.index t (0 : Fin 2) * 5000 + 1 * (z 0).val = win1_5.index t (0 : Fin 2) * 5000 + 1 * (z 0).val
      omega
    | ⟨1, _⟩ =>
      show win1_1.index t (1 : Fin 2) * 128 + 1 * (z 1).val = win1_5.index t (1 : Fin 2) * 128 + 1 * (z 1).val
      omega

/-- An entry of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v39).slice (win1_5.rect t)).set ↔ _
  rw [View.set_slice_whole, Rect.mem_set_unit]
  exact Iff.rfl

/-- Row `r` lies in block `r / 5000`: the 20 blocks of 5000 rows tile the 100000 rows. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, o0, o1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The result array of round 1's kernel, entered at the contents `V`, is the round of the arrays it reads. -/
theorem out_eq (c : Dev nD) :
    (dat1 (F := Ideal) V c).arrAt 5 cfg1.N
      = Spec.layer (V c main_v31) (V c main_v21) (V c main_v33) (V c main_v38) (V c main_v37) := by
  exact (dat1 (F := Ideal) V c).arrAt_eq_of_cover 5
    (Spec.layer (V c main_v31) (V c main_v21) (V c main_v33) (V c main_v38) (V c main_v37))
    (fun t _ => flushed_eq V c t) cover

end Cert.KernelIdeal.Region1

end
-- ==== Proof.Stage2.lean ====
/-
  Round 1: from the end of round 0 to the end of round 1. The host recomputes the wrapped source ids from the
  edge ids it kept, gathers and scatters the features round 0 left, and slices round 1's parameters; the dense kernel
  leaves round 1's features. Nothing else that is read later changes.
-/
import proofs.«415848_j10471130267877_1_alg».proof.Proof.Gen.KernelIdeal.Frame
import proofs.«415848_j10471130267877_1_alg».proof.Proof.Boundary
import proofs.«415848_j10471130267877_1_alg».proof.Proof.Spec
import Idealize.ShloMosaic.Lib.StableHlo.Run
import proofs.«415848_j10471130267877_1_alg».proof.Proof.Region1

noncomputable section

namespace Cert.KernelIdeal.Stages

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (ρ : Dev nD → PrngReg) (c : Dev nD)

/-! ## What the host stretch before round 1's kernel leaves, read at the contents before it -/

/-- The neighbour sums: the wrapped source ids recomputed, the features gathered along them and added into the
    destinations' rows, starting from zero. -/
private theorem entry_agg :
    W3 (F := Ideal) m ρ c (Proc.devRef .tc main_v31)
      = Spec.agg (W2 (F := Ideal) m ρ c (Proc.devRef .tc main_v1)) (W2 (F := Ideal) m ρ c (Proc.devRef .tc main_v3))
          (W2 (F := Ideal) m ρ c (Proc.devRef .tc main_v21)) := by
  show StableHlo.after hostOps1 _ (Proc.devRef .tc main_v31) = _
  after_results
  rfl

/-- Round 1's matrix for the neighbour sums: slice 1 of the first stack. -/
private theorem entry_rel :
    W3 (F := Ideal) m ρ c (Proc.devRef .tc main_v33) = Spec.mat1 (W2 (F := Ideal) m ρ c (Proc.devRef .tc main_arg3)) := by
  show StableHlo.after hostOps1 _ (Proc.devRef .tc main_v33) = _
  after_results
  rfl

/-- Round 1's bias row: slice 1 of the stacked biases. -/
private theorem entry_bias :
    W3 (F := Ideal) m ρ c (Proc.devRef .tc main_v38) = Spec.row1 (W2 (F := Ideal) m ρ c (Proc.devRef .tc main_arg4)) := by
  show StableHlo.after hostOps1 _ (Proc.devRef .tc main_v38) = _
  after_results
  rfl

/-- Round 1's matrix for the features themselves: slice 1 of the second stack. -/
private theorem entry_root :
    W3 (F := Ideal) m ρ c (Proc.devRef .tc main_v37) = Spec.mat1 (W2 (F := Ideal) m ρ c (Proc.devRef .tc main_arg5)) := by
  show StableHlo.after hostOps1 _ (Proc.devRef .tc main_v37) = _
  after_results
  rfl

/-- The buffers the host stretch before round 1's kernel writes. -/
private def written : List (Ref sig .tc) :=
  [main_c_1, main_v22, main_v23, main_c_2, main_v24, main_v25, main_v26, main_v27, main_v28, main_cst_3, main_v29,
    main_v30, main_v31, main_v32, main_v33, main_v34, main_v35, main_v36, main_v37, main_v38]

/-- Any other buffer holds after the stretch what it held before. -/
private theorem host_keeps (r : Ref sig .tc) (hr : r ∉ written) :
    W3 (F := Ideal) m ρ c (Proc.devRef .tc r) = W2 (F := Ideal) m ρ c (Proc.devRef .tc r) := by
  refine StableHlo.after_of_writes_sub (W := written) _ _ ?_ hr
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer that the stretch does not write and that is not one of the kernel's arrays is, after the kernel, as it
    was before the stretch. -/
private theorem keeps (r : Ref sig .tc) (hr : r ∉ written) (hw : ∀ w, Pipeline.arrRef spec1 w ≠ r) :
    W4 (F := Ideal) m ρ c (Proc.devRef .tc r) = W2 (F := Ideal) m ρ c (Proc.devRef .tc r) :=
  (W4_of_ne m ρ c r hw).trans (host_keeps m ρ c r hr)

/-- After round 1's kernel, given what the boundary before it holds. -/
theorem stage2 (X : Spec.Nodes) (ei : IVec S2x1600000 32) (bt : IVec S100000 32)
    (wr : FVec Ideal S3x128x128 .f32) (b : FVec Ideal S3x128 .f32) (wo : FVec Ideal S3x128x128 .f32)
    (lw : FVec Ideal S128x16 .f32) (lb : FVec Ideal S16 .f32)
    (hX : W2 (F := Ideal) m ρ c (Proc.devRef .tc main_v21) = X)
    (hk : Kept (W2 (F := Ideal) m ρ c) ei bt wr b wo lw lb) :
    W4 (F := Ideal) m ρ c (Proc.devRef .tc main_v39)
        = Spec.layer (Spec.agg (Spec.edgeSrc ei) (Spec.edgeDst ei) X) X (Spec.mat1 wr) (Spec.row1 b) (Spec.mat1 wo)
      ∧ Kept (W4 (F := Ideal) m ρ c) ei bt wr b wo lw lb := by
  refine ⟨?_, ⟨?_, ?_, ?_, ?_, ?_, ?_, ?_, ?_⟩⟩
  · -- the kernel's result array is the round of the five arrays it was entered with
    refine (W4_arr m ρ c 5).trans ?_
    refine (Region1.out_eq (V3 (F := Ideal) m ρ) c).trans ?_
    show Spec.layer (W3 (F := Ideal) m ρ c (Proc.devRef .tc main_v31)) (W3 (F := Ideal) m ρ c (Proc.devRef .tc main_v21))
      (W3 (F := Ideal) m ρ c (Proc.devRef .tc main_v33)) (W3 (F := Ideal) m ρ c (Proc.devRef .tc main_v38))
      (W3 (F := Ideal) m ρ c (Proc.devRef .tc main_v37)) = _
    rw [entry_agg, entry_rel, entry_bias, entry_root, host_keeps m ρ c main_v21 (by decide), hk.src, hk.dst, hX, hk.a3,
      hk.a4, hk.a5]
  · exact (keeps m ρ c main_v1 (by decide) (by decide)).trans hk.src
  · exact (keeps m ρ c main_v3 (by decide) (by decide)).trans hk.dst
  · exact (keeps m ρ c main_arg2 (by decide) (by decide)).trans hk.a2
  · exact (keeps m ρ c main_arg3 (by decide) (by decide)).trans hk.a3
  · exact (keeps m ρ c main_arg4 (by decide) (by decide)).trans hk.a4
  · exact (keeps m ρ c main_arg5 (by decide) (by decide)).trans hk.a5
  · exact (keeps m ρ c main_arg6 (by decide) (by decide)).trans hk.a6
  · exact (keeps m ρ c main_arg7 (by decide) (by decide)).trans hk.a7

end Cert.KernelIdeal.Stages

end
-- ==== Proof.Region2.lean ====
/-
  Round 2 of message passing as a whole array: the dense kernel runs over 20 blocks of 5000 nodes; block t of the
  result is rows 5000·t … 5000·t + 4999, computed from the same rows of the neighbour sums and of the features and from
  the whole weight matrices and bias row; the 20 blocks tile the 100000 rows, so the array after the run is the round's
  function of the arrays the kernel was entered with.
-/
import proofs.«415848_j10471130267877_1_alg».proof.Proof.Gen.KernelIdeal.Frame
import proofs.«415848_j10471130267877_1_alg».proof.Proof.LayerBlock
import proofs.«415848_j10471130267877_1_alg».proof.Proof.Spec
import Idealize.ShloMosaic.Lib.Pipeline.Value
import Idealize.ShloMosaic.Lib.ValueIdx

noncomputable section

namespace Cert.KernelIdeal.Region2

open Idealize.ShloMosaic Idealize.ShloMosaic.TcCoe Idealize.ShloMosaic.ValueIdx Idealize.SL.Sem Cert.KernelIdeal Cert.KernelIdeal.Gen Cert.KernelIdeal.LayerBlock
open Idealize.ShloMosaic.Pipeline (Dat)
open scoped BigOperators

variable (V : (c : Dev nD) → (b : Ref sig .tc) → Buf (Elt Ideal) ((c : Thread nD τ).loc b))

/-- Both spellings of the zero offset of a rectangle that is a whole buffer. -/
theorem zero_off : (![0, 0] : Fin 2 → Nat) = fun _ => 0 := funext fun a => by fin_cases a <;> rfl

/-- The block each window is at, at each of the 20 points: the neighbour sums, the features and the result move down
    the rows one block per point; the two weight matrices and the bias row stay at their only block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body on a block of 5000 rows that are rows `n·5000 + p` of the arrays `A` and `X` (`e` places an entry of the
    block in the array): entry `(p, q)` of what it stores is the round at row `n·5000 + p`, column `q`, since that entry
    reads row `p` of the two blocks only, and the weights and the bias whole. -/
theorem block_eq (A X : Spec.Nodes) (Wr Wo : FVec Ideal S128x128 .f32) (b : FVec Ideal S1x128 .f32)
    (a x : FVec Ideal S5000x128 .f32) (e : S5000x128.Idx → S100000x128.Idx) (n : Nat)
    (he0 : ∀ y, ((e y) 0).val = n * 5000 + (y 0).val) (he1 : ∀ y, ((e y) 1).val = (y 1).val)
    (ha : ∀ y, a y = A (e y)) (hx : ∀ y, x y = X (e y)) :
    k2_pay1 (F := Ideal) a x Wr Wo b = fun y => Spec.layer A X Wr b Wo (e y) := by
  funext y
  obtain ⟨p, q, rfl⟩ : ∃ (p : Fin 5000) (q : Fin 128), y = ix2 p q := ⟨y 0, y 1, eq_ix2 y⟩
  rw [pay2_apply]
  obtain ⟨P, hrow⟩ : ∃ P : Fin 100000, ∀ k : Fin 128, e (ix2 p k) = ix2 P k :=
    ⟨e (ix2 p q) 0, fun k => Shape.idx_ext₂ ((he0 (ix2 p k)).trans (he0 (ix2 p q)).symm) (he1 (ix2 p k))⟩
  show blockAt a x Wr b Wo p q = Spec.layerAt A X Wr b Wo (e (ix2 p q) 0) (e (ix2 p q) 1)
  rw [hrow q]
  show blockAt a x Wr b Wo p q = Spec.layerAt A X Wr b Wo P q
  unfold blockAt Spec.layerAt
  simp only [ha, hx, hrow]

/-- The window over the whole first weight matrix holds that matrix at every point. -/
theorem wrel_blk (c : Dev nD) (t : Fin cfg2.N) : (iblk2 V c 2 t : FVec Ideal S128x128 .f32) = V c main_v51 := by
  obtain ⟨-, -, -, -, e0, e1, -⟩ := idx_facts t
  funext y
  show V c main_v51 (((cfg2.win 2).blk t).view.emb y) = V c main_v51 y
  refine congrArg (V c main_v51) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The window over the bias row holds that row at every point. -/
theorem bias_blk (c : Dev nD) (t : Fin cfg2.N) : (iblk2 V c 3 t : FVec Ideal S1x128 .f32) = V c main_v56 := by
  obtain ⟨-, -, -, -, -, -, e0, e1, -⟩ := idx_facts t
  funext y
  show V c main_v56 (((cfg2.win 3).blk t).view.emb y) = V c main_v56 y
  refine congrArg (V c main_v56) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The window over the whole second weight matrix holds that matrix at every point. -/
theorem wroot_blk (c : Dev nD) (t : Fin cfg2.N) : (iblk2 V c 4 t : FVec Ideal S128x128 .f32) = V c main_v55 := by
  obtain ⟨-, -, -, -, -, -, -, -, e0, e1, -⟩ := idx_facts t
  funext y
  show V c main_v55 (((cfg2.win 4).blk t).view.emb y) = V c main_v55 y
  refine congrArg (V c main_v55) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- What point `t` writes back is block `t` of the round of the arrays: the blocks of the neighbour sums and of the
    features at `t` are the rows the result's block at `t` covers, an entry of a block sitting in its array at the
    block's number times the block's extent plus the entry's own coordinate. -/
theorem flushed_eq (c : Dev nD) (t : Fin cfg2.N) :
    (dat2 (F := Ideal) V c).flushed 5 t = ((cfg2.win 5).blk t).view.read (Elt Ideal)
      (Spec.layer (V c main_v49) (V c main_v39) (V c main_v51) (V c main_v56) (V c main_v55)) := by
  show (cfg2.win 5).cut (grid2.coords t) ((dat2 V c).after 5 t) = _
  rw [after2_5]
  unfold out2_5
  rw [View.canon_unit_zero zero_off]
  simp only [View.ld_unit_zero (S := S5000x128) zero_off, View.ld_unit_zero (S := S128x128) zero_off,
    View.ld_unit_zero (S := S1x128) zero_off]
  rw [wrel_blk V c t, bias_blk V c t, wroot_blk V c t]
  obtain ⟨a0, a1, x0, x1, -, -, -, -, -, -, o0, o1⟩ := idx_facts t
  funext y
  show k2_pay1 (F := Ideal) (iblk2 V c 0 t) (iblk2 V c 1 t) (V c main_v51) (V c main_v55) (V c main_v56) y
    = Spec.layer (V c main_v49) (V c main_v39) (V c main_v51) (V c main_v56) (V c main_v55) (((cfg2.win 5).blk t).view.emb y)
  refine congrFun (block_eq (V c main_v49) (V c main_v39) (V c main_v51) (V c main_v55) (V c main_v56)
    (iblk2 V c 0 t) (iblk2 V c 1 t) (((cfg2.win 5).blk t).view.emb) t.val ?_ ?_ ?_ ?_) y
  · intro z
    show win2_5.index t (0 : Fin 2) * 5000 + 1 * (z 0).val = t.val * 5000 + (z 0).val
    omega
  · intro z
    show win2_5.index t (1 : Fin 2) * 128 + 1 * (z 1).val = (z 1).val
    omega
  · intro z
    show V c main_v49 (((cfg2.win 0).blk t).view.emb z) = V c main_v49 (((cfg2.win 5).blk t).view.emb z)
    refine congrArg (V c main_v49) (funext fun a => Fin.ext ?_)
    match a with
    | ⟨0, _⟩ =>
      show win2_0.index t (0 : Fin 2) * 5000 + 1 * (z 0).val = win2_5.index t (0 : Fin 2) * 5000 + 1 * (z 0).val
      omega
    | ⟨1, _⟩ =>
      show win2_0.index t (1 : Fin 2) * 128 + 1 * (z 1).val = win2_5.index t (1 : Fin 2) * 128 + 1 * (z 1).val
      omega
  · intro z
    show V c main_v39 (((cfg2.win 1).blk t).view.emb z) = V c main_v39 (((cfg2.win 5).blk t).view.emb z)
    refine congrArg (V c main_v39) (funext fun a => Fin.ext ?_)
    match a with
    | ⟨0, _⟩ =>
      show win2_1.index t (0 : Fin 2) * 5000 + 1 * (z 0).val = win2_5.index t (0 : Fin 2) * 5000 + 1 * (z 0).val
      omega
    | ⟨1, _⟩ =>
      show win2_1.index t (1 : Fin 2) * 128 + 1 * (z 1).val = win2_5.index t (1 : Fin 2) * 128 + 1 * (z 1).val
      omega

/-- An entry of the result array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v57).slice (win2_5.rect t)).set ↔ _
  rw [View.set_slice_whole, Rect.mem_set_unit]
  exact Iff.rfl

/-- Row `r` lies in block `r / 5000`: the 20 blocks of 5000 rows tile the 100000 rows. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, o0, o1⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- The result array of round 2's kernel, entered at the contents `V`, is the round of the arrays it reads. -/
theorem out_eq (c : Dev nD) :
    (dat2 (F := Ideal) V c).arrAt 5 cfg2.N
      = Spec.layer (V c main_v49) (V c main_v39) (V c main_v51) (V c main_v56) (V c main_v55) := by
  exact (dat2 (F := Ideal) V c).arrAt_eq_of_cover 5
    (Spec.layer (V c main_v49) (V c main_v39) (V c main_v51) (V c main_v56) (V c main_v55))
    (fun t _ => flushed_eq V c t) cover

end Cert.KernelIdeal.Region2

end
-- ==== Proof.Stage3.lean ====
/-
  Round 2: from the end of round 1 to the end of round 2. The host recomputes the wrapped source ids from the
  edge ids it kept, gathers and scatters the features round 1 left, and slices round 2's parameters; the dense kernel
  leaves round 2's features. Nothing else that is read later changes.
-/
import proofs.«415848_j10471130267877_1_alg».proof.Proof.Gen.KernelIdeal.Frame
import proofs.«415848_j10471130267877_1_alg».proof.Proof.Boundary
import proofs.«415848_j10471130267877_1_alg».proof.Proof.Spec
import Idealize.ShloMosaic.Lib.StableHlo.Run
import proofs.«415848_j10471130267877_1_alg».proof.Proof.Region2

noncomputable section

namespace Cert.KernelIdeal.Stages

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (ρ : Dev nD → PrngReg) (c : Dev nD)

/-! ## What the host stretch before round 2's kernel leaves, read at the contents before it -/

/-- The neighbour sums: the wrapped source ids recomputed, the features gathered along them and added into the
    destinations' rows, starting from zero. -/
private theorem entry_agg :
    W5 (F := Ideal) m ρ c (Proc.devRef .tc main_v49)
      = Spec.agg (W4 (F := Ideal) m ρ c (Proc.devRef .tc main_v1)) (W4 (F := Ideal) m ρ c (Proc.devRef .tc main_v3))
          (W4 (F := Ideal) m ρ c (Proc.devRef .tc main_v39)) := by
  show StableHlo.after hostOps2 _ (Proc.devRef .tc main_v49) = _
  after_results
  rfl

/-- Round 2's matrix for the neighbour sums: slice 2 of the first stack. -/
private theorem entry_rel :
    W5 (F := Ideal) m ρ c (Proc.devRef .tc main_v51) = Spec.mat2 (W4 (F := Ideal) m ρ c (Proc.devRef .tc main_arg3)) := by
  show StableHlo.after hostOps2 _ (Proc.devRef .tc main_v51) = _
  after_results
  rfl

/-- Round 2's bias row: slice 2 of the stacked biases. -/
private theorem entry_bias :
    W5 (F := Ideal) m ρ c (Proc.devRef .tc main_v56) = Spec.row2 (W4 (F := Ideal) m ρ c (Proc.devRef .tc main_arg4)) := by
  show StableHlo.after hostOps2 _ (Proc.devRef .tc main_v56) = _
  after_results
  rfl

/-- Round 2's matrix for the features themselves: slice 2 of the second stack. -/
private theorem entry_root :
    W5 (F := Ideal) m ρ c (Proc.devRef .tc main_v55) = Spec.mat2 (W4 (F := Ideal) m ρ c (Proc.devRef .tc main_arg5)) := by
  show StableHlo.after hostOps2 _ (Proc.devRef .tc main_v55) = _
  after_results
  rfl

/-- The buffers the host stretch before round 2's kernel writes. -/
private def written : List (Ref sig .tc) :=
  [main_c_4, main_v40, main_v41, main_c_5, main_v42, main_v43, main_v44, main_v45, main_v46, main_cst_6, main_v47,
    main_v48, main_v49, main_v50, main_v51, main_v52, main_v53, main_v54, main_v55, main_v56]

/-- Any other buffer holds after the stretch what it held before. -/
private theorem host_keeps (r : Ref sig .tc) (hr : r ∉ written) :
    W5 (F := Ideal) m ρ c (Proc.devRef .tc r) = W4 (F := Ideal) m ρ c (Proc.devRef .tc r) := by
  refine StableHlo.after_of_writes_sub (W := written) _ _ ?_ hr
  simp only [hostOps2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer that the stretch does not write and that is not one of the kernel's arrays is, after the kernel, as it
    was before the stretch. -/
private theorem keeps (r : Ref sig .tc) (hr : r ∉ written) (hw : ∀ w, Pipeline.arrRef spec2 w ≠ r) :
    W6 (F := Ideal) m ρ c (Proc.devRef .tc r) = W4 (F := Ideal) m ρ c (Proc.devRef .tc r) :=
  (W6_of_ne m ρ c r hw).trans (host_keeps m ρ c r hr)

/-- After round 2's kernel, given what the boundary before it holds. -/
theorem stage3 (X : Spec.Nodes) (ei : IVec S2x1600000 32) (bt : IVec S100000 32)
    (wr : FVec Ideal S3x128x128 .f32) (b : FVec Ideal S3x128 .f32) (wo : FVec Ideal S3x128x128 .f32)
    (lw : FVec Ideal S128x16 .f32) (lb : FVec Ideal S16 .f32)
    (hX : W4 (F := Ideal) m ρ c (Proc.devRef .tc main_v39) = X)
    (hk : Kept (W4 (F := Ideal) m ρ c) ei bt wr b wo lw lb) :
    W6 (F := Ideal) m ρ c (Proc.devRef .tc main_v57)
        = Spec.layer (Spec.agg (Spec.edgeSrc ei) (Spec.edgeDst ei) X) X (Spec.mat2 wr) (Spec.row2 b) (Spec.mat2 wo)
      ∧ Kept (W6 (F := Ideal) m ρ c) ei bt wr b wo lw lb := by
  refine ⟨?_, ⟨?_, ?_, ?_, ?_, ?_, ?_, ?_, ?_⟩⟩
  · -- the kernel's result array is the round of the five arrays it was entered with
    refine (W6_arr m ρ c 5).trans ?_
    refine (Region2.out_eq (V5 (F := Ideal) m ρ) c).trans ?_
    show Spec.layer (W5 (F := Ideal) m ρ c (Proc.devRef .tc main_v49)) (W5 (F := Ideal) m ρ c (Proc.devRef .tc main_v39))
      (W5 (F := Ideal) m ρ c (Proc.devRef .tc main_v51)) (W5 (F := Ideal) m ρ c (Proc.devRef .tc main_v56))
      (W5 (F := Ideal) m ρ c (Proc.devRef .tc main_v55)) = _
    rw [entry_agg, entry_rel, entry_bias, entry_root, host_keeps m ρ c main_v39 (by decide), hk.src, hk.dst, hX, hk.a3,
      hk.a4, hk.a5]
  · exact (keeps m ρ c main_v1 (by decide) (by decide)).trans hk.src
  · exact (keeps m ρ c main_v3 (by decide) (by decide)).trans hk.dst
  · exact (keeps m ρ c main_arg2 (by decide) (by decide)).trans hk.a2
  · exact (keeps m ρ c main_arg3 (by decide) (by decide)).trans hk.a3
  · exact (keeps m ρ c main_arg4 (by decide) (by decide)).trans hk.a4
  · exact (keeps m ρ c main_arg5 (by decide) (by decide)).trans hk.a5
  · exact (keeps m ρ c main_arg6 (by decide) (by decide)).trans hk.a6
  · exact (keeps m ρ c main_arg7 (by decide) (by decide)).trans hk.a7

end Cert.KernelIdeal.Stages

end
-- ==== Proof.PoolBlock.lean ====
/-
  One block of the per-graph sums: the body of the pooling kernel, read at an entry.
  For a block of 5000 nodes with graph ids `bt`, the body adds to the running sums, at (g, d), the sum over the block's
  nodes t of [bt t = g]·x[t,d] — a product of the one-hot matrix of the ids with the features, contracted over the
  nodes — and to the running counts, at g, the number of the block's nodes whose id is g. The comparison is between
  32-bit words; for g below 64 the word of g is g read signed.
-/
import proofs.«415848_j10471130267877_1_alg».proof.Proof.Gen.KernelIdeal.Skeleton
import proofs.«415848_j10471130267877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PoolBlock

open Idealize.ShloMosaic Idealize.ShloMosaic.TcCoe Idealize.ShloMosaic.ValueIdx Idealize.SL.Sem Cert.KernelIdeal Cert.KernelIdeal.Gen
open scoped BigOperators

/-- The reset stores zero everywhere in the sums. -/
theorem pay1_apply (i : S64x128.Idx) : k3_pay1 (F := Ideal) i = 0 := by
  unfold k3_pay1
  exact Ideal.ofBits_zero_f32

/-- The reset stores zero everywhere in the counts. -/
theorem pay2_apply (i : S1x64.Idx) : k3_pay2 (F := Ideal) i = 0 := by
  unfold k3_pay2
  exact Ideal.ofBits_zero_f32

/-- A graph number below 64, written as a 32-bit word and read back signed, is itself. -/
private theorem toInt_word (g : Fin 64) : (BitVec.ofNat 32 g.val).toInt = (g.val : Int) := by
  have hg := g.isLt
  rw [BitVec.toInt_eq_toNat_cond, BitVec.toNat_ofNat]
  have e : g.val % 2 ^ 32 = g.val := Nat.mod_eq_of_lt (by omega)
  rw [e]
  split <;> omega

/-- The comparison of a word with the word of `g`, widened and converted, is one where the word read signed is `g`
    and zero elsewhere. -/
private theorem hot_word (v : BitVec 32) (g : Fin 64) :
    ((((IntOp.cmpi .eq v (BitVec.ofNat 32 g.val)).setWidth 32).toInt : ℝ) : EReal) = Spec.hot v g := by
  unfold Spec.hot
  by_cases h : v = BitVec.ofNat 32 g.val
  · have hi : v.toInt = (g.val : Int) := by rw [h]; exact toInt_word g
    rw [if_pos hi]
    have e : IntOp.cmpi .eq v (BitVec.ofNat 32 g.val) = 1#1 := by simp [IntOp.cmpi, h]
    rw [e]
    have e2 : ((1#1 : BitVec 1).setWidth 32).toInt = 1 := by decide
    rw [e2]; simp
  · have hi : ¬ v.toInt = (g.val : Int) := fun e => h (BitVec.eq_of_toInt_eq (e.trans (toInt_word g).symm))
    rw [if_neg hi]
    have hb : (v == BitVec.ofNat 32 g.val) = false := beq_eq_false_iff_ne.mpr h
    have e : IntOp.cmpi .eq v (BitVec.ofNat 32 g.val) = 0#1 := by
      show BitVec.ofBool (v == BitVec.ofNat 32 g.val) = 0#1
      rw [hb]; rfl
    rw [e]
    have e2 : ((0#1 : BitVec 1).setWidth 32).toInt = 0 := by decide
    rw [e2]; simp

/-- The comparison at node `t` and lane `g`: the node's id against the word of `g`. -/
private theorem pay3_apply (bt : IVec S5000x1 32) (t : Fin 5000) (g : Fin 64) :
    k3_pay3 (F := Ideal) bt (ix2 t g) = IntOp.cmpi .eq (bt (ix2 t (0 : Fin 1))) (BitVec.ofNat 32 g.val) := by
  unfold k3_pay3
  show IntOp.cmpi .eq (broadcastTo S5000x64 (shapeCast S5000x1 bt shapeCasts_S5000x1_S5000x1) broadcasts_S5000x1_S5000x64 (ix2 t g))
      (iota .tc S5000x64 32 [1] iota_S5000x64_d1_w32 (ix2 t g)) = _
  have e1 : broadcastTo S5000x64 (shapeCast S5000x1 bt shapeCasts_S5000x1_S5000x1) broadcasts_S5000x1_S5000x64 (ix2 t g)
      = bt (ix2 t (0 : Fin 1)) := by
    refine (broadcastTo_apply _ broadcasts_S5000x1_S5000x64 (ix2 t g) (ix2 t (0 : Fin 1)) ?_).trans ?_
    · intro a
      match a with
      | ⟨0, _⟩ => rfl
      | ⟨1, _⟩ => rfl
    · exact congrFun (shapeCast_self bt shapeCasts_S5000x1_S5000x1) _
  have e2 : iota .tc S5000x64 32 [1] iota_S5000x64_d1_w32 (ix2 t g) = BitVec.ofNat 32 g.val := by
    show BitVec.ofNat 32 (0 * 64 + g.val) = _
    rw [Nat.zero_mul, Nat.zero_add]
  rw [e1, e2]

/-- The one-hot matrix of a block's ids, as extended reals. -/
private def onehot (bt : IVec S5000x1 32) : FVec Ideal S5000x64 .f32 :=
  sitofp .f32 (extui 32 (k3_pay3 (F := Ideal) bt) natLt_1_32)

private theorem onehot_apply (bt : IVec S5000x1 32) (t : Fin 5000) (g : Fin 64) :
    onehot bt (ix2 t g) = Spec.hot (bt (ix2 t (0 : Fin 1))) g := by
  unfold onehot
  show ((((k3_pay3 (F := Ideal) bt (ix2 t g)).setWidth 32).toInt : ℝ) : EReal) = _
  rw [pay3_apply]
  exact hot_word _ g

/-! The product contracts the node axis of both operands: entry `(g, d)` sums, over the block's nodes `t`, the one-hot
    matrix at `(t, g)` times the features at `(t, d)`. -/

private theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
private theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
private theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
private theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The sum over the contraction index, re-indexed by the node `t`. -/
private theorem pool_sum {φ₁ φ₂ : FTy} (lhs : FVec Ideal S5000x64 φ₁) (rhs : FVec Ideal S5000x128 φ₂) (g : Fin 64) (d : Fin 128) :
    (∑ κ : dot_S5000x64_S5000x128_S64x128_0_0_1_1_n_n.contr.Idx,
        lhs (dot_S5000x64_S5000x128_S64x128_0_0_1_1_n_n.lhsIdx (ix2 g d) κ) * rhs (dot_S5000x64_S5000x128_S64x128_0_0_1_1_n_n.rhsIdx (ix2 g d) κ))
      = ∑ t : Fin 5000, lhs (ix2 t g) * rhs (ix2 t d) := by
  rw [← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g :=
    funext fun a => Fin.ext (by
      match a with
      | ⟨0, _⟩ => exact (lhs_pool_0 _ _).trans hk
      | ⟨1, _⟩ => exact lhs_pool_1 _ _)
  have er : dot_S5000x64_S5000x128_S64x128_0_0_1_1_n_n.rhsIdx (ix2 g d) ((contrEquiv1 dot_S5000x64_S5000x128_S64x128_0_0_1_1_n_n 5000 rfl rfl).symm k) = ix2 k d :=
    funext fun a => Fin.ext (by
      match a with
      | ⟨0, _⟩ => exact (rhs_pool_0 _ _).trans hk
      | ⟨1, _⟩ => exact rhs_pool_1 _ _)
  rw [el, er]

/-- The sums after a block: what was there plus the block's one-hot product. -/
theorem pay4_apply (x : FVec Ideal S5000x128 .f32) (bt : IVec S5000x1 32) (acc : FVec Ideal S64x128 .f32)
    (g : Fin 64) (d : Fin 128) :
    k3_pay4 (F := Ideal) x bt acc (ix2 g d)
      = acc (ix2 g d) + ∑ t : Fin 5000, Spec.hot (bt (ix2 t (0 : Fin 1))) g * x (ix2 t d) := by
  unfold k3_pay4
  show shapeCast S64x128 acc shapeCasts_S64x128_S64x128 (ix2 g d)
      + FloatOps.matmul dot_S5000x64_S5000x128_S64x128_0_0_1_1_n_n none
          (truncf .bf16 (onehot bt) bitsLt_bf16_f32 : FVec Ideal S5000x64 .bf16)
          (truncf .bf16 (shapeCast S5000x128 x shapeCasts_S5000x128_S5000x128) bitsLt_bf16_f32 : FVec Ideal S5000x128 .bf16)
          (constant (F := Ideal) S64x128 .f32 0x00000000#32) (ix2 g d) = _
  refine congrArg₂ (· + ·) (congrFun (shapeCast_self acc shapeCasts_S64x128_S64x128) _) ?_
  refine (Ideal.matmul_constant_zero_apply _ none _ _ _).trans ?_
  refine (pool_sum _ _ g d).trans ?_
  refine Finset.sum_congr rfl fun t _ => ?_
  refine congrArg₂ (· * ·) ?_ ?_
  · exact onehot_apply bt t g
  · exact congrFun (shapeCast_self x shapeCasts_S5000x128_S5000x128) _

/-- A row of 64 read as a 1×64 array. -/
private theorem row_cast {α : Type} (v : S64.Idx → α) (g : Fin 64) :
    shapeCast S1x64 v shapeCasts_S64_S1x64 (ix2 (0 : Fin 1) g) = v (ix1 g) :=
  shapeCast_apply v shapeCasts_S64_S1x64 (ix2 (0 : Fin 1) g) (ix1 g) (by
    rw [Shape.rowMajor_val_one, Shape.rowMajor_val_two]
    show g.val = 0 * 64 + g.val
    omega)

/-- The sum over the node axis of a 5000×64 array, at lane `g`. -/
private theorem lane_sum (src : FVec Ideal S5000x64 .f32) (hφ : FKind.Formats .f32)
    (hacc : (0x00000000#32 : BitVec 32) = FKind.add.neutral .f32 hφ) (g : Fin 64) :
    multiReduction (F := Ideal) .add [0] S64 src 0x00000000#32 reduces_S5000x64_S64 hφ hacc (ix1 g)
      = ∑ t : Fin 5000, src (ix2 t g) := by
  refine (Ideal.multiReduction_add_single src 0x00000000#32 reduces_S5000x64_S64 hφ hacc (ix1 g)).trans ?_
  refine Finset.sum_congr rfl fun t _ => congrArg src ?_
  funext a
  match a with
  | ⟨0, _⟩ => rfl
  | ⟨1, _⟩ => rfl

/-- The counts after a block: what was there plus the number of the block's nodes of graph `g`. -/
theorem pay5_apply (bt : IVec S5000x1 32) (acc : FVec Ideal S1x64 .f32) (g : Fin 64) :
    k3_pay5 (F := Ideal) bt acc (ix2 (0 : Fin 1) g)
      = acc (ix2 (0 : Fin 1) g) + ∑ t : Fin 5000, Spec.hot (bt (ix2 t (0 : Fin 1))) g := by
  unfold k3_pay5
  show shapeCast S1x64 acc shapeCasts_S1x64_S1x64 (ix2 (0 : Fin 1) g)
      + shapeCast S1x64 (multiReduction (F := Ideal) .add [0] S64 (onehot bt) 0x00000000#32 reduces_S5000x64_S64 (.inl rfl) rfl)
          shapeCasts_S64_S1x64 (ix2 (0 : Fin 1) g) = _
  refine congrArg₂ (· + ·) (congrFun (shapeCast_self acc shapeCasts_S1x64_S1x64) _) ?_
  refine (row_cast _ g).trans ?_
  refine (lane_sum (onehot bt) _ _ g).trans ?_
  exact Finset.sum_congr rfl fun t _ => onehot_apply bt t g

end Cert.KernelIdeal.PoolBlock

end
-- ==== Proof.Region3.lean ====
/-
  The per-graph sums and counts as whole arrays: the pooling kernel visits 20 blocks of 5000 nodes in order; both of
  its results stay in place across the grid (one block, never moved), are reset at the first point and added to at
  every point, and are written back after the last. So after point n they hold the sums over the first 5000·(n+1)
  nodes, and the arrays after the run hold the sums over all 100000.
-/
import proofs.«415848_j10471130267877_1_alg».proof.Proof.Gen.KernelIdeal.Frame
import proofs.«415848_j10471130267877_1_alg».proof.Proof.PoolBlock
import proofs.«415848_j10471130267877_1_alg».proof.Proof.Spec
import Idealize.ShloMosaic.Lib.Pipeline.Value
import Idealize.ShloMosaic.Lib.ValueIdx
import Idealize.ShloMosaic.Lib.Tactic
import Idealize.ShloMosaic.Lib.FinSumWindow

noncomputable section

namespace Cert.KernelIdeal.Region3

open Idealize.ShloMosaic Idealize.ShloMosaic.TcCoe Idealize.ShloMosaic.ValueIdx Idealize.SL.Sem Cert.KernelIdeal Cert.KernelIdeal.Gen Cert.KernelIdeal.PoolBlock
open Idealize.ShloMosaic.Pipeline (Dat)
open scoped BigOperators

variable (V : (c : Dev nD) → (b : Ref sig .tc) → Buf (Elt Ideal) ((c : Thread nD τ).loc b))

/-! ## What each point leaves in the two results, as the body's arithmetic -/

section Pieces
variable {F : FTy → Type} [FloatOps F]

/-- The origin of a rank-2 array, written as a constant function. -/
private theorem hz : (![0, 0] : Fin 2 → Nat) = fun _ => 0 := funext fun a => by fin_cases a <;> rfl

/-- A later point's sums: the body's one store, over the two input blocks and what was there. -/
private theorem out_B_2 (c : Dev nD) (i : grid3.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S1x64 .f32) (h4 : a4.IsWhole) (hc : ¬cond3_0 i)
    (x0 : Vec F S5000x128 .f32) (x1 : Vec F S5000x1 .i32) (xo2 : Vec F S64x128 .f32) (xo3 : Vec F S1x64 .f32) :
    out3_B_2 c i a1 h1 a2 h2 a3 h3 a4 h4 hc x0 x1 xo2 xo3 = k3_pay4 x0 x1 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S64x128) hz]

/-- A later point's counts. -/
private theorem out_B_3 (c : Dev nD) (i : grid3.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S1x64 .f32) (h4 : a4.IsWhole) (hc : ¬cond3_0 i)
    (x0 : Vec F S5000x128 .f32) (x1 : Vec F S5000x1 .i32) (xo2 : Vec F S64x128 .f32) (xo3 : Vec F S1x64 .f32) :
    out3_B_3 c i a1 h1 a2 h2 a3 h3 a4 h4 hc x0 x1 xo2 xo3 = k3_pay5 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz]
  simp only [View.readAt_eq_ld, h2.read_unread, h4.read_unread,
    View.ld_unit_zero (S := S5000x1) hz, View.ld_unit_zero (S := S1x64) hz]

/-- The first point's sums: the reset, read back, then the update. -/
private theorem out_A_2 (c : Dev nD) (i : grid3.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S1x64 .f32) (h4 : a4.IsWhole) (hc : cond3_0 i)
    (x0 : Vec F S5000x128 .f32) (x1 : Vec F S5000x1 .i32) :
    out3_A_2 c i a1 h1 a2 h2 a3 h3 a4 h4 hc x0 x1 = k3_pay4 x0 x1 (k3_pay1 (F := F)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S64x128) hz, View.readCov_unit_zero (S := S64x128) _ hz]
  simp only [View.readAt_eq_ld, h1.read_unread, h2.read_unread, View.ld_unit_zero (S := S5000x128) hz,
    View.ld_unit_zero (S := S5000x1) hz]

/-- The first point's counts: the reset, read back, then the update. -/
private theorem out_A_3 (c : Dev nD) (i : grid3.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S1x64 .f32) (h4 : a4.IsWhole) (hc : cond3_0 i)
    (x0 : Vec F S5000x128 .f32) (x1 : Vec F S5000x1 .i32) :
    out3_A_3 c i a1 h1 a2 h2 a3 h3 a4 h4 hc x0 x1 = k3_pay5 x1 (k3_pay2 (F := F)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x64) hz, View.readCov_unit_zero (S := S1x64) _ hz]
  simp only [View.readAt_eq_ld, h2.read_unread, View.ld_unit_zero (S := S5000x1) hz]

end Pieces

/-! ## Sums over the first rows -/

/-- The sum of `f` over the rows below `k`. -/
private def pre (f : Fin 100000 → EReal) (k : ℕ) : EReal := ∑ N : Fin 100000, if N.val < k then f N else 0

/-- Below row 0 there is nothing. -/
private theorem pre_zero (f : Fin 100000 → EReal) : pre f 0 = 0 := by
  unfold pre
  exact Finset.sum_eq_zero fun N _ => if_neg (Nat.not_lt_zero _)

/-- Below row 100000 is every row. -/
private theorem pre_full (f : Fin 100000 → EReal) : pre f 100000 = ∑ N : Fin 100000, f N := by
  unfold pre
  exact Finset.sum_congr rfl fun N _ => if_pos N.isLt

/-- One more window of 5000 rows. -/
private theorem pre_step (f : Fin 100000 → EReal) (k : ℕ) (hk : k + 5000 ≤ 100000) :
    pre f (k + 5000) = pre f k + ∑ p : Fin 5000, f ⟨k + p.val, by omega⟩ := by
  unfold pre
  have hsplit : ∀ N : Fin 100000, (if N.val < k + 5000 then f N else 0)
      = (if N.val < k then f N else 0) + (if k ≤ N.val ∧ N.val < k + 5000 then f N else 0) := by
    intro N
    by_cases h1 : N.val < k
    · rw [if_pos h1, if_pos (by omega), if_neg (by omega), add_zero]
    · by_cases h2 : N.val < k + 5000
      · rw [if_neg h1, if_pos h2, if_pos ⟨by omega, h2⟩, zero_add]
      · rw [if_neg h1, if_neg h2, if_neg (fun h => h2 h.2), add_zero]
  rw [Finset.sum_congr rfl (fun N _ => hsplit N), Finset.sum_add_distrib]
  rw [FinSumWindow.sum_window k hk (fun N : Fin 100000 => if k ≤ N.val ∧ N.val < k + 5000 then f N else 0)
    (fun P hP => if_neg hP)]
  exact congrArg (HAdd.hAdd _) (Finset.sum_congr rfl fun p _ => if_pos ⟨Nat.le_add_right _ _, Nat.add_lt_add_left p.isLt _⟩)

/-! ## The blocks, read off the arrays -/

/-- The features as the pooling kernel finds them. -/
private abbrev xarr (c : Dev nD) : Vec Ideal S100000x128 .f32 := V c main_v57
/-- The graph-id column as the pooling kernel finds it. -/
private abbrev barr (c : Dev nD) : Vec Ideal S100000x1 .i32 := V c main_v58
/-- The block of 5000 feature rows point `t` sees. -/
private abbrev xblk (c : Dev nD) (t : Fin cfg3.N) : Vec Ideal S5000x128 .f32 := iblk3 V c 0 t
/-- The block of 5000 graph ids point `t` sees. -/
private abbrev bblk (c : Dev nD) (t : Fin cfg3.N) : Vec Ideal S5000x1 .i32 := iblk3 V c 1 t

/-- Point `t` sees row block `t` of both inputs, all columns. -/
private theorem idx_facts : ∀ t : Fin cfg3.N, win3_0.index t 0 = t.val ∧ win3_0.index t 1 = 0 ∧ win3_1.index t 0 = t.val ∧ win3_1.index t 1 = 0 :=
  (by decide +kernel : ∀ t : Fin grid3.N, win3_0.index t 0 = t.val ∧ win3_0.index t 1 = 0 ∧ win3_1.index t 0 = t.val ∧ win3_1.index t 1 = 0)

/-- Row `p` of point `t`'s feature block is row `5000·t + p` of the features. -/
private theorem xblk_apply (c : Dev nD) (t : Fin cfg3.N) (p : Fin 5000) (d : Fin 128) (N : Fin 100000)
    (hN : N.val = 5000 * t.val + p.val) : xblk V c t (ix2 p d) = xarr V c (ix2 N d) := by
  unfold xblk iblk3
  rw [View.read_apply]
  show V c main_v57 _ = V c main_v57 _
  congr 1
  funext a
  apply Fin.ext
  match a with
  | ⟨0, _⟩ => show win3_0.index t 0 * 5000 + 1 * p.val = N.val; rw [(idx_facts t).1]; omega
  | ⟨1, _⟩ => show win3_0.index t 1 * 128 + 1 * d.val = d.val; rw [(idx_facts t).2.1]; omega

/-- Row `p` of point `t`'s id block is row `5000·t + p` of the ids. -/
private theorem bblk_apply (c : Dev nD) (t : Fin cfg3.N) (p : Fin 5000) (N : Fin 100000)
    (hN : N.val = 5000 * t.val + p.val) : bblk V c t (ix2 p (0 : Fin 1)) = barr V c (ix2 N (0 : Fin 1)) := by
  unfold bblk iblk3
  rw [View.read_apply]
  show V c main_v58 _ = V c main_v58 _
  congr 1
  funext a
  apply Fin.ext
  match a with
  | ⟨0, _⟩ => show win3_1.index t 0 * 5000 + 1 * p.val = N.val; rw [(idx_facts t).2.2.1]; omega
  | ⟨1, _⟩ => show win3_1.index t 1 * 1 + 1 * 0 = 0; rw [(idx_facts t).2.2.2]

/-! ## After point n: the sums over the first 5000·(n+1) nodes -/

/-- The running per-graph sums after point `n`, entry by entry. -/
private theorem sums_at (c : Dev nD) : ∀ (n : ℕ) (h : n < cfg3.N) (g : Fin 64) (d : Fin 128),
    (outsAt3 V c n h).1 (ix2 g d)
      = pre (fun N => Spec.hot (barr V c (ix2 N (0 : Fin 1))) g * xarr V c (ix2 N d)) (5000 * (n + 1))
  | 0, h, g, d => by
    rw [outsAt3_A V c ⟨0, h⟩ rfl]
    dsimp only
    refine (congrFun (out_A_2 (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) (ms3_3 ⟨0, h⟩) (hs3_3 ⟨0, h⟩) ((hcond3_0 ⟨0, h⟩).mpr rfl)
      (xblk V c ⟨0, h⟩) (bblk V c ⟨0, h⟩)) (ix2 g d)).trans ?_
    refine (pay4_apply (xblk V c ⟨0, h⟩) (bblk V c ⟨0, h⟩) (k3_pay1 (F := Ideal)) g d).trans ?_
    rw [pay1_apply, show 5000 * (0 + 1) = 0 + 5000 from rfl, pre_step _ 0 (by omega), pre_zero]
    refine congrArg (HAdd.hAdd _) (Finset.sum_congr rfl fun p _ => ?_)
    rw [bblk_apply V c ⟨0, h⟩ p ⟨0 + p.val, by omega⟩ (by simp), xblk_apply V c ⟨0, h⟩ p d ⟨0 + p.val, by omega⟩ (by simp)]
  | n + 1, h, g, d => by
    have hN : cfg3.N = 20 := N_3
    have hn : n < cfg3.N := Nat.lt_of_succ_lt h
    have hB : ¬(⟨n + 1, h⟩ : Fin cfg3.N).val % 20 = 0 := by dsimp only; omega
    have ih := sums_at c n hn g d
    rw [outsAt3_B V c ⟨n + 1, h⟩ hB]
    dsimp only
    refine (congrFun (out_B_2 (F := Ideal) c (grid3.coords ⟨n + 1, h⟩) (ms3_0 ⟨n + 1, h⟩) (hs3_0 ⟨n + 1, h⟩) (ms3_1 ⟨n + 1, h⟩) (hs3_1 ⟨n + 1, h⟩)
      (ms3_2 ⟨n + 1, h⟩) (hs3_2 ⟨n + 1, h⟩) (ms3_3 ⟨n + 1, h⟩) (hs3_3 ⟨n + 1, h⟩) (fun hh => hB ((hcond3_0 ⟨n + 1, h⟩).mp hh))
      (xblk V c ⟨n + 1, h⟩) (bblk V c ⟨n + 1, h⟩) (outsAt3 V c n hn).1 (outsAt3 V c n hn).2) (ix2 g d)).trans ?_
    refine (pay4_apply (xblk V c ⟨n + 1, h⟩) (bblk V c ⟨n + 1, h⟩) (outsAt3 V c n hn).1 g d).trans ?_
    rw [ih, show 5000 * (n + 1 + 1) = 5000 * (n + 1) + 5000 from by ring, pre_step _ (5000 * (n + 1)) (by omega)]
    refine congrArg (HAdd.hAdd _) (Finset.sum_congr rfl fun p _ => ?_)
    rw [bblk_apply V c ⟨n + 1, h⟩ p ⟨5000 * (n + 1) + p.val, by omega⟩ rfl,
      xblk_apply V c ⟨n + 1, h⟩ p d ⟨5000 * (n + 1) + p.val, by omega⟩ rfl]

/-- The running per-graph counts after point `n`, entry by entry. -/
private theorem cnts_at (c : Dev nD) : ∀ (n : ℕ) (h : n < cfg3.N) (g : Fin 64),
    (outsAt3 V c n h).2 (ix2 (0 : Fin 1) g)
      = pre (fun N => Spec.hot (barr V c (ix2 N (0 : Fin 1))) g) (5000 * (n + 1))
  | 0, h, g => by
    rw [outsAt3_A V c ⟨0, h⟩ rfl]
    dsimp only
    refine (congrFun (out_A_3 (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) (ms3_3 ⟨0, h⟩) (hs3_3 ⟨0, h⟩) ((hcond3_0 ⟨0, h⟩).mpr rfl)
      (xblk V c ⟨0, h⟩) (bblk V c ⟨0, h⟩)) (ix2 (0 : Fin 1) g)).trans ?_
    refine (pay5_apply (bblk V c ⟨0, h⟩) (k3_pay2 (F := Ideal)) g).trans ?_
    rw [pay2_apply, show 5000 * (0 + 1) = 0 + 5000 from rfl, pre_step _ 0 (by omega), pre_zero]
    refine congrArg (HAdd.hAdd _) (Finset.sum_congr rfl fun p _ => ?_)
    rw [bblk_apply V c ⟨0, h⟩ p ⟨0 + p.val, by omega⟩ (by simp)]
  | n + 1, h, g => by
    have hN : cfg3.N = 20 := N_3
    have hn : n < cfg3.N := Nat.lt_of_succ_lt h
    have hB : ¬(⟨n + 1, h⟩ : Fin cfg3.N).val % 20 = 0 := by dsimp only; omega
    have ih := cnts_at c n hn g
    rw [outsAt3_B V c ⟨n + 1, h⟩ hB]
    dsimp only
    refine (congrFun (out_B_3 (F := Ideal) c (grid3.coords ⟨n + 1, h⟩) (ms3_0 ⟨n + 1, h⟩) (hs3_0 ⟨n + 1, h⟩) (ms3_1 ⟨n + 1, h⟩) (hs3_1 ⟨n + 1, h⟩)
      (ms3_2 ⟨n + 1, h⟩) (hs3_2 ⟨n + 1, h⟩) (ms3_3 ⟨n + 1, h⟩) (hs3_3 ⟨n + 1, h⟩) (fun hh => hB ((hcond3_0 ⟨n + 1, h⟩).mp hh))
      (xblk V c ⟨n + 1, h⟩) (bblk V c ⟨n + 1, h⟩) (outsAt3 V c n hn).1 (outsAt3 V c n hn).2) (ix2 (0 : Fin 1) g)).trans ?_
    refine (pay5_apply (bblk V c ⟨n + 1, h⟩) (outsAt3 V c n hn).2 g).trans ?_
    rw [ih, show 5000 * (n + 1 + 1) = 5000 * (n + 1) + 5000 from by ring, pre_step _ (5000 * (n + 1)) (by omega)]
    refine congrArg (HAdd.hAdd _) (Finset.sum_congr rfl fun p _ => ?_)
    rw [bblk_apply V c ⟨n + 1, h⟩ p ⟨5000 * (n + 1) + p.val, by omega⟩ rfl]

/-! ## The last point holds the whole sums, and writes them back -/

/-- After the last point the sums run over all 100000 nodes. -/
private theorem sums_last (c : Dev nD) (t : Fin cfg3.N) (h19 : t.val = 19) :
    (outsAt3 V c t.val t.isLt).1 = Spec.sums (xarr V c) (barr V c) := by
  funext i
  obtain ⟨g, d, rfl⟩ : ∃ (g : Fin 64) (d : Fin 128), i = ix2 g d := ⟨i 0, i 1, eq_ix2 i⟩
  rw [sums_at V c t.val t.isLt g d, h19, show 5000 * (19 + 1) = 100000 from rfl, pre_full]
  rfl

/-- After the last point the counts run over all 100000 nodes. -/
private theorem cnts_last (c : Dev nD) (t : Fin cfg3.N) (h19 : t.val = 19) :
    (outsAt3 V c t.val t.isLt).2 = Spec.cnts (barr V c) := by
  funext i
  obtain ⟨z, g, rfl⟩ : ∃ (z : Fin 1) (g : Fin 64), i = ix2 z g := ⟨i 0, i 1, eq_ix2 i⟩
  obtain rfl : z = 0 := Subsingleton.elim _ _
  rw [cnts_at V c t.val t.isLt g, h19, show 5000 * (19 + 1) = 100000 from rfl, pre_full]
  rfl

/-- Both results' one block sits at the origin and is the whole array, at every point. -/
private theorem out_facts : ∀ t : Fin cfg3.N,
    (win3_2.index t 0 = 0 ∧ win3_2.index t 1 = 0 ∧ win3_2.xsize (grid3.coords t) 0 = 64 ∧ win3_2.xsize (grid3.coords t) 1 = 128)
    ∧ (win3_3.index t 0 = 0 ∧ win3_3.index t 1 = 0 ∧ win3_3.xsize (grid3.coords t) 0 = 1 ∧ win3_3.xsize (grid3.coords t) 1 = 64) :=
  (by decide +kernel : ∀ t : Fin grid3.N,
    (win3_2.index t 0 = 0 ∧ win3_2.index t 1 = 0 ∧ win3_2.xsize (grid3.coords t) 0 = 64 ∧ win3_2.xsize (grid3.coords t) 1 = 128)
    ∧ (win3_3.index t 0 = 0 ∧ win3_3.index t 1 = 0 ∧ win3_3.xsize (grid3.coords t) 0 = 1 ∧ win3_3.xsize (grid3.coords t) 1 = 64))

/-- The last point. -/
private abbrev tLast : Fin cfg3.N := ⟨19, by rw [show cfg3.N = 20 from N_3]; decide⟩

/-- The one write-back of the sums, at the last point, writes the whole sums. -/
private theorem flushed2_eq (c : Dev nD) (t : Fin cfg3.N) (hf : (cfg3.win 2).flush t = true) :
    (dat3 V c).flushed 2 t = ((cfg3.win 2).blk t).view.read (Elt Ideal) (Spec.sums (xarr V c) (barr V c)) := by
  have hN : cfg3.N = 20 := N_3
  have h19 : t.val = 19 := by have := (flush3_2 t).mp hf; have := t.isLt; omega
  show (cfg3.win 2).cut (grid3.coords t) ((dat3 V c).after 2 t) = _
  rw [after3_2, sums_last V c t h19]
  have hz' : (fun a => win3_2.index t a * main_v59_0.ty.shape.size a) = fun _ => 0 :=
    funext fun a => by
      match a with
      | ⟨0, _⟩ => show win3_2.index t 0 * _ = 0; rw [(out_facts t).1.1, Nat.zero_mul]
      | ⟨1, _⟩ => show win3_2.index t 1 * _ = 0; rw [(out_facts t).1.2.1, Nat.zero_mul]
  exact (Memref.read_access_unit_zero (Elt Ideal) main_v59_0 hz' (fun a => by rw [congrFun hz' a]; simp)
    (Spec.sums (xarr V c) (barr V c))).symm

/-- The one write-back of the counts, at the last point, writes the whole counts. -/
private theorem flushed3_eq (c : Dev nD) (t : Fin cfg3.N) (hf : (cfg3.win 3).flush t = true) :
    (dat3 V c).flushed 3 t = ((cfg3.win 3).blk t).view.read (Elt Ideal) (Spec.cnts (barr V c)) := by
  have hN : cfg3.N = 20 := N_3
  have h19 : t.val = 19 := by have := (flush3_3 t).mp hf; have := t.isLt; omega
  show (cfg3.win 3).cut (grid3.coords t) ((dat3 V c).after 3 t) = _
  rw [after3_3, cnts_last V c t h19]
  have hz' : (fun a => win3_3.index t a * main_v59_1.ty.shape.size a) = fun _ => 0 :=
    funext fun a => by
      match a with
      | ⟨0, _⟩ => show win3_3.index t 0 * _ = 0; rw [(out_facts t).2.1, Nat.zero_mul]
      | ⟨1, _⟩ => show win3_3.index t 1 * _ = 0; rw [(out_facts t).2.2.1, Nat.zero_mul]
  exact (Memref.read_access_unit_zero (Elt Ideal) main_v59_1 hz' (fun a => by rw [congrFun hz' a]; simp)
    (Spec.cnts (barr V c))).symm

/-- The sums array after the pooling kernel, entered at the contents `V`. -/
theorem sums_eq (c : Dev nD) :
    (dat3 (F := Ideal) V c).arrAt 2 cfg3.N = Spec.sums (V c main_v57) (V c main_v58) :=
  (dat3 V c).arrAt_eq_of_cover 2 (Spec.sums (xarr V c) (barr V c)) (flushed2_eq V c) fun i =>
    ⟨tLast, (flush3_2 tLast).mpr rfl, by
      show i ∈ ((View.whole main_v59_0).slice (win3_2.rect tLast)).set
      rw [View.set_slice_whole, Rect.mem_set_unit]
      intro a
      have h0 : (i 0 : Nat) < 64 := (i 0).isLt
      have h1 : (i 1 : Nat) < 128 := (i 1).isLt
      match a with
      | ⟨0, _⟩ =>
        show win3_2.index tLast 0 * win3_2.size 0 ≤ (i 0 : Nat)
          ∧ (i 0 : Nat) < win3_2.index tLast 0 * win3_2.size 0 + win3_2.xsize (grid3.coords tLast) 0
        rw [(out_facts tLast).1.1, (out_facts tLast).1.2.2.1, Nat.zero_mul]; omega
      | ⟨1, _⟩ =>
        show win3_2.index tLast 1 * win3_2.size 1 ≤ (i 1 : Nat)
          ∧ (i 1 : Nat) < win3_2.index tLast 1 * win3_2.size 1 + win3_2.xsize (grid3.coords tLast) 1
        rw [(out_facts tLast).1.2.1, (out_facts tLast).1.2.2.2, Nat.zero_mul]; omega⟩

/-- The counts array after the pooling kernel, entered at the contents `V`. -/
theorem cnts_eq (c : Dev nD) :
    (dat3 (F := Ideal) V c).arrAt 3 cfg3.N = Spec.cnts (V c main_v58) :=
  (dat3 V c).arrAt_eq_of_cover 3 (Spec.cnts (barr V c)) (flushed3_eq V c) fun i =>
    ⟨tLast, (flush3_3 tLast).mpr rfl, by
      show i ∈ ((View.whole main_v59_1).slice (win3_3.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win3_3.index tLast 0 * win3_3.size 0 ≤ (i 0 : Nat)
          ∧ (i 0 : Nat) < win3_3.index tLast 0 * win3_3.size 0 + win3_3.xsize (grid3.coords tLast) 0
        rw [(out_facts tLast).2.1, (out_facts tLast).2.2.2.1, Nat.zero_mul]; omega
      | ⟨1, _⟩ =>
        show win3_3.index tLast 1 * win3_3.size 1 ≤ (i 1 : Nat)
          ∧ (i 1 : Nat) < win3_3.index tLast 1 * win3_3.size 1 + win3_3.xsize (grid3.coords tLast) 1
        rw [(out_facts tLast).2.2.1, (out_facts tLast).2.2.2.2, Nat.zero_mul]; omega⟩

end Cert.KernelIdeal.Region3

end
-- ==== Proof.Stage4.lean ====
/-
  From the end of round 2 to the return: the graph ids become a column, the pooling kernel leaves the per-graph sums and
  counts of round 2's features, and the host divides by max(count, 1) and applies the last affine map.
-/
import proofs.«415848_j10471130267877_1_alg».proof.Proof.Gen.KernelIdeal.Frame
import proofs.«415848_j10471130267877_1_alg».proof.Proof.Boundary
import proofs.«415848_j10471130267877_1_alg».proof.Proof.Spec
import Idealize.ShloMosaic.Lib.StableHlo.Run
import proofs.«415848_j10471130267877_1_alg».proof.Proof.Region3

noncomputable section

namespace Cert.KernelIdeal.Stages

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (ρ : Dev nD → PrngReg) (c : Dev nD)

/-- A buffer the reshape of the graph ids does not write holds what the boundary after round 2 left there. -/
private theorem W7_keep (r : Ref sig .tc) (hr : main_v58 ≠ r) :
    W7 (F := Ideal) m ρ c (Proc.devRef .tc r) = W6 (F := Ideal) m ρ c (Proc.devRef .tc r) :=
  StableHlo.after_of_forall_not_mem (b := Proc.devRef .tc r) _ _ (List.forall_iff_forall_mem.mp (by
    simp only [hostOps3, List.Forall, StableHlo.reshape_writes, Finset.mem_singleton]
    exact StableHlo.devRef_ne_of_ne (Ne.symm hr)))

/-- The result buffer at the return, given what the boundary after round 2 holds. -/
theorem stage4 (X : Spec.Nodes) (ei : IVec S2x1600000 32) (bt : IVec S100000 32)
    (wr : FVec Ideal S3x128x128 .f32) (b : FVec Ideal S3x128 .f32) (wo : FVec Ideal S3x128x128 .f32)
    (lw : FVec Ideal S128x16 .f32) (lb : FVec Ideal S16 .f32)
    (hX : W6 (F := Ideal) m ρ c (Proc.devRef .tc main_v57) = X)
    (hk : Kept (W6 (F := Ideal) m ρ c) ei bt wr b wo lw lb) :
    W9 (F := Ideal) m ρ c (Proc.devRef .tc main_v68)
      = Spec.head (Spec.sums X (Spec.idCol bt)) (Spec.cnts (Spec.idCol bt)) lw lb := by
  -- the graph ids as a column, at the pooling kernel's entry
  have h58 : W7 (F := Ideal) m ρ c (Proc.devRef .tc main_v58) = Spec.idCol bt := by
    show StableHlo.after hostOps3 _ (Proc.devRef .tc main_v58) = _
    after_results
    rw [hk.a2]; rfl
  -- round 2's features, which the reshape leaves alone
  have h57 : W7 (F := Ideal) m ρ c (Proc.devRef .tc main_v57) = X :=
    (W7_keep m ρ c main_v57 (by decide)).trans hX
  -- the pooling kernel's two results: the per-graph sums and the per-graph counts
  have hS : W8 (F := Ideal) m ρ c (Proc.devRef .tc main_v59_0) = Spec.sums X (Spec.idCol bt) := by
    refine (W8_arr (F := Ideal) m ρ c 2).trans ?_
    refine (Region3.sums_eq (V7 (F := Ideal) m ρ) c).trans ?_
    show Spec.sums (W7 (F := Ideal) m ρ c (Proc.devRef .tc main_v57)) (W7 (F := Ideal) m ρ c (Proc.devRef .tc main_v58)) = _
    rw [h57, h58]
  have hC : W8 (F := Ideal) m ρ c (Proc.devRef .tc main_v59_1) = Spec.cnts (Spec.idCol bt) := by
    refine (W8_arr (F := Ideal) m ρ c 3).trans ?_
    refine (Region3.cnts_eq (V7 (F := Ideal) m ρ) c).trans ?_
    show Spec.cnts (W7 (F := Ideal) m ρ c (Proc.devRef .tc main_v58)) = _
    rw [h58]
  -- the last affine map's two arrays, written by neither the pooling kernel nor the reshape
  have h6 : W8 (F := Ideal) m ρ c (Proc.devRef .tc main_arg6) = lw :=
    (W8_of_ne (F := Ideal) m ρ c main_arg6 (by decide)).trans ((W7_keep m ρ c main_arg6 (by decide)).trans hk.a6)
  have h7 : W8 (F := Ideal) m ρ c (Proc.devRef .tc main_arg7) = lb :=
    (W8_of_ne (F := Ideal) m ρ c main_arg7 (by decide)).trans ((W7_keep m ρ c main_arg7 (by decide)).trans hk.a7)
  -- the host's last ten operations: divide the sums by max(count, 1), then the affine map
  show StableHlo.after hostOps4 _ (Proc.devRef .tc main_v68) = _
  after_results
  rw [hS, hC, h6, h7]
  rfl

end Cert.KernelIdeal.Stages

end
-- ==== Proof.KernelValue.lean ====
/-
  The kernel's result buffer at the return is the specification's function of the eight arguments: the four parts of
  the program chained, each read at what the part before it leaves.
-/
import proofs.«415848_j10471130267877_1_alg».proof.Proof.Stage1
import proofs.«415848_j10471130267877_1_alg».proof.Proof.Stage2
import proofs.«415848_j10471130267877_1_alg».proof.Proof.Stage3
import proofs.«415848_j10471130267877_1_alg».proof.Proof.Stage4

noncomputable section

namespace Cert.KernelIdeal.Stages

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (ρ : Dev nD → PrngReg) (c : Dev nD)

/-- The result buffer's contents at the return. -/
theorem out_eq :
    W9 (F := Ideal) m ρ c (Proc.devRef .tc main_v68)
      = Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  obtain ⟨h1, k1⟩ := stage1 m ρ c
  obtain ⟨h2, k2⟩ := stage2 m ρ c _ _ _ _ _ _ _ _ h1 k1
  obtain ⟨h3, k3⟩ := stage3 m ρ c _ _ _ _ _ _ _ _ h2 k2
  exact stage4 m ρ c _ _ _ _ _ _ _ _ h3 k3

end Cert.KernelIdeal.Stages

end
-- ==== Proof.RefEdges.lean ====
/-
  The reference's edge handling is the specification's: the two rows of edge ids, and the neighbour sums before each
  of the three rounds — the same slices, the same wrap of negative source ids, the same gather and scatter, applied to
  the features of the round before.
-/
import proofs.«415848_j10471130267877_1_alg».proof.Proof.Gen.ReferenceIdeal.Read
import proofs.«415848_j10471130267877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Idealize.ShloMosaic Idealize.ShloMosaic.TcCoe Idealize.ShloMosaic.ValueIdx Idealize.SL.Sem Cert.ReferenceIdeal Cert.ReferenceIdeal.Gen Cert.ReferenceIdeal.Read
open scoped BigOperators

/-- The source ids the reference slices out are the specification's. -/
theorem src_eq (x1 : (⟨S2x1600000, .i32⟩ : BufTy).Contents (Elt Ideal)) : val_main_v1 (F := Ideal) x1 = Spec.edgeSrc x1 := by
  -- Both sides are row 0 of the edge array, sliced out and re-laid as a vector of 1600000.
  unfold val_main_v1 val_main_v0 Spec.edgeSrc
  rfl

/-- The destination ids the reference slices out are the specification's. -/
theorem dst_eq (x1 : (⟨S2x1600000, .i32⟩ : BufTy).Contents (Elt Ideal)) : val_main_v3 (F := Ideal) x1 = Spec.edgeDst x1 := by
  -- Both sides are row 1 of the edge array, sliced out and re-laid as a vector of 1600000.
  unfold val_main_v3 val_main_v2 Spec.edgeDst
  rfl

/-- The neighbour sums in the shape the reference writes them — zeros, the destination ids as a column, and the rows
    gathered at the source ids (a negative id wrapped once by 100000) as a column — are the specification's
    neighbour sums of the same source ids, destination ids and features.  The shapes and the gather and scatter
    records of the two programs are the same literals. -/
private theorem agg_form (s d : (⟨S1600000, .i32⟩ : BufTy).Contents (Elt Ideal))
    (X : (⟨S100000x128, .f32⟩ : BufTy).Contents (Elt Ideal)) :
    Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 X
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      = Spec.agg s d X := by
  unfold Spec.agg
  rfl

/-- The neighbour sums before round 0. -/
theorem agg1_eq (x0 : (⟨S100000x128, .f32⟩ : BufTy).Contents (Elt Ideal)) (x1 : (⟨S2x1600000, .i32⟩ : BufTy).Contents (Elt Ideal)) :
    val_main_v13 (F := Ideal) x0 x1 = Spec.agg (Spec.edgeSrc x1) (Spec.edgeDst x1) x0 := by
  -- State the specification's side over the reference's own source and destination ids, then open the reference's
  -- chain of operations down to those ids: what is left is the common form above.
  rw [← src_eq x1, ← dst_eq x1]
  unfold val_main_v13 val_main_v12 val_main_v11 val_main_v10 val_main_v9 val_main_v8 val_main_v7 val_main_v6 val_main_v5
    val_main_v4 val_main_c val_main_c_0 val_main_cst
  generalize val_main_v1 (F := Ideal) x1 = s
  generalize val_main_v3 (F := Ideal) x1 = d
  exact agg_form s d x0

/-- The neighbour sums before round 1, of the features round 0 left. -/
theorem agg2_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) :
    val_main_v36 (F := Ideal) x0 x1 x3 x4 x5 = Spec.agg (Spec.edgeSrc x1) (Spec.edgeDst x1) (val_main_v26 (F := Ideal) x0 x1 x3 x4 x5) := by
  -- As for round 0, with the features round 0 left kept as one unopened array.
  rw [← src_eq x1, ← dst_eq x1]
  unfold val_main_v36 val_main_v35 val_main_v34 val_main_v33 val_main_v32 val_main_v31 val_main_v30 val_main_v29 val_main_v28
    val_main_v27 val_main_c_1 val_main_c_2 val_main_cst_3
  generalize val_main_v26 (F := Ideal) x0 x1 x3 x4 x5 = X
  generalize val_main_v1 (F := Ideal) x1 = s
  generalize val_main_v3 (F := Ideal) x1 = d
  exact agg_form s d X

/-- The neighbour sums before round 2, of the features round 1 left. -/
theorem agg3_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) :
    val_main_v59 (F := Ideal) x0 x1 x3 x4 x5 = Spec.agg (Spec.edgeSrc x1) (Spec.edgeDst x1) (val_main_v49 (F := Ideal) x0 x1 x3 x4 x5) := by
  -- As for round 0, with the features round 1 left kept as one unopened array.
  rw [← src_eq x1, ← dst_eq x1]
  unfold val_main_v59 val_main_v58 val_main_v57 val_main_v56 val_main_v55 val_main_v54 val_main_v53 val_main_v52 val_main_v51
    val_main_v50 val_main_c_4 val_main_c_5 val_main_cst_6
  generalize val_main_v49 (F := Ideal) x0 x1 x3 x4 x5 = X
  generalize val_main_v1 (F := Ideal) x1 = s
  generalize val_main_v3 (F := Ideal) x1 = d
  exact agg_form s d X

end Cert.ReferenceIdeal.Bridge

end
-- ==== Proof.RefLayers.lean ====
/-
  Each of the reference's three rounds is the specification's round of the neighbour sums and features it is applied
  to: two whole-array matrix products, each the plain sum over the 128 contracted coordinates; the bias added between
  them where the specification adds it last (addition of extended reals is commutative and associative); the
  maximum with a zero array.
-/
import proofs.«415848_j10471130267877_1_alg».proof.Proof.Gen.ReferenceIdeal.Read
import proofs.«415848_j10471130267877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Idealize.ShloMosaic Idealize.ShloMosaic.TcCoe Idealize.ShloMosaic.ValueIdx Idealize.SL.Sem Cert.ReferenceIdeal Cert.ReferenceIdeal.Gen Cert.ReferenceIdeal.Read
open scoped BigOperators

/-- Round 0's bias row at column q is entry (0, q) of the stacked biases: the two reshapes [1,128] → [128] → [1,128]
    keep the row-major position, and the slice starts at row 0. -/
private theorem row0_at (x4 : (⟨S3x128, .f32⟩ : BufTy).Contents (Elt Ideal)) (q : Fin 128) :
    Spec.row0 x4 (ix2 (0 : Fin 1) q) = x4 (ix2 (0 : Fin 3) q) := by
  unfold Spec.row0
  refine (shapeCast_apply _ Cert.KernelIdeal.Gen.shapeCasts_S128_S1x128 (ix2 (0 : Fin 1) q) (ix1 q) ?_).trans ?_
  · rw [Shape.rowMajor_val_one, Shape.rowMajor_val_two]; show q.val = 0 * 128 + q.val; omega
  refine (shapeCast_apply _ Cert.KernelIdeal.Gen.shapeCasts_S1x128_S128 (ix1 q) (ix2 (0 : Fin 1) q) ?_).trans ?_
  · rw [Shape.rowMajor_val_one, Shape.rowMajor_val_two]; show 0 * 128 + q.val = q.val; omega
  exact extractStridedSlice_apply ![0, 0] x4 Cert.KernelIdeal.Gen.slices_S3x128_S1x128_0_0 (ix2 (0 : Fin 1) q) (ix2 (0 : Fin 3) q) (fun a => match a with
    | ⟨0, _⟩ => rfl
    | ⟨1, _⟩ => by show q.val = 0 + q.val; omega)

/-- Round 0. Entry (p, q): the two products are sums over the 128 contracted coordinates, the broadcast bias is entry
    (0, q) of the stacked biases, and (a + b) + c = (a + c) + b moves the bias behind the second product. -/
theorem layer1_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) :
    val_main_v26 (F := Ideal) x0 x1 x3 x4 x5
      = Spec.layer (val_main_v13 (F := Ideal) x0 x1) x0 (Spec.mat0 x3) (Spec.row0 x4) (Spec.mat0 x5) := by
  have hm3 : Spec.mat0 x3 = val_main_v15 (F := Ideal) x3 := rfl
  have hm5 : Spec.mat0 x5 = val_main_v23 (F := Ideal) x5 := rfl
  funext i
  obtain ⟨p, q, rfl⟩ : ∃ (p : Fin 100000) (q : Fin 128), i = ix2 p q := ⟨i 0, i 1, eq_ix2 i⟩
  have el1 : ∀ k : Fin 128, lidx_main_v16 (ix2 p q) k = ix2 p k := fun k =>
    funext fun a => Fin.ext (by match a with | ⟨0, _⟩ => rfl | ⟨1, _⟩ => rfl)
  have er1 : ∀ k : Fin 128, ridx_main_v16 (ix2 p q) k = ix2 k q := fun k =>
    funext fun a => Fin.ext (by match a with | ⟨0, _⟩ => rfl | ⟨1, _⟩ => rfl)
  have el2 : ∀ k : Fin 128, lidx_main_v24 (ix2 p q) k = ix2 p k := fun k =>
    funext fun a => Fin.ext (by match a with | ⟨0, _⟩ => rfl | ⟨1, _⟩ => rfl)
  have er2 : ∀ k : Fin 128, ridx_main_v24 (ix2 p q) k = ix2 k q := fun k =>
    funext fun a => Fin.ext (by match a with | ⟨0, _⟩ => rfl | ⟨1, _⟩ => rfl)
  have eb : idx_main_v17 (idx_main_v18 (idx_main_v19 (idx_main_v20 (ix2 p q)))) = ix2 (0 : Fin 3) q :=
    funext fun a => Fin.ext (by
      match a with
      | ⟨0, _⟩ => rfl
      | ⟨1, _⟩ => show q.val % 128 = q.val; exact Nat.mod_eq_of_lt q.isLt)
  rw [val_main_v26_apply, val_main_v25_apply, val_main_v21_apply, val_main_v16_apply, val_main_v20_apply,
    val_main_v19_apply, val_main_v18_apply, val_main_v17_apply, val_main_v24_apply, val_main_call0_v0_apply,
    val_main_call0_cst_apply, eb]
  simp only [el1, er1, el2, er2]
  show _ = Spec.layerAt (val_main_v13 (F := Ideal) x0 x1) x0 (Spec.mat0 x3) (Spec.row0 x4) (Spec.mat0 x5) p q
  unfold Spec.layerAt
  rw [row0_at, hm3, hm5]
  generalize val_main_v13 (F := Ideal) x0 x1 = A
  generalize val_main_v15 (F := Ideal) x3 = Wr
  generalize val_main_v23 (F := Ideal) x5 = Wo
  simp only [Ideal.addf_def, Ideal.maximumf_def, Ideal.ofBits_def, Ideal.ofBits_zero_f32]
  rw [add_right_comm]

/-- Round 1's bias row at column q is entry (1, q) of the stacked biases: the two reshapes [1,128] → [128] → [1,128]
    keep the row-major position, and the slice starts at row 1. -/
private theorem row1_at (x4 : (⟨S3x128, .f32⟩ : BufTy).Contents (Elt Ideal)) (q : Fin 128) :
    Spec.row1 x4 (ix2 (0 : Fin 1) q) = x4 (ix2 (1 : Fin 3) q) := by
  unfold Spec.row1
  refine (shapeCast_apply _ Cert.KernelIdeal.Gen.shapeCasts_S128_S1x128 (ix2 (0 : Fin 1) q) (ix1 q) ?_).trans ?_
  · rw [Shape.rowMajor_val_one, Shape.rowMajor_val_two]; show q.val = 0 * 128 + q.val; omega
  refine (shapeCast_apply _ Cert.KernelIdeal.Gen.shapeCasts_S1x128_S128 (ix1 q) (ix2 (0 : Fin 1) q) ?_).trans ?_
  · rw [Shape.rowMajor_val_one, Shape.rowMajor_val_two]; show 0 * 128 + q.val = q.val; omega
  exact extractStridedSlice_apply ![1, 0] x4 Cert.KernelIdeal.Gen.slices_S3x128_S1x128_1_0 (ix2 (0 : Fin 1) q) (ix2 (1 : Fin 3) q) (fun a => match a with
    | ⟨0, _⟩ => rfl
    | ⟨1, _⟩ => by show q.val = 0 + q.val; omega)

/-- Round 1. Entry (p, q): the two products are sums over the 128 contracted coordinates, the broadcast bias is entry
    (1, q) of the stacked biases, and (a + b) + c = (a + c) + b moves the bias behind the second product. -/
theorem layer2_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) :
    val_main_v49 (F := Ideal) x0 x1 x3 x4 x5
      = Spec.layer (val_main_v36 (F := Ideal) x0 x1 x3 x4 x5) (val_main_v26 (F := Ideal) x0 x1 x3 x4 x5) (Spec.mat1 x3) (Spec.row1 x4) (Spec.mat1 x5) := by
  have hm3 : Spec.mat1 x3 = val_main_v38 (F := Ideal) x3 := rfl
  have hm5 : Spec.mat1 x5 = val_main_v46 (F := Ideal) x5 := rfl
  funext i
  obtain ⟨p, q, rfl⟩ : ∃ (p : Fin 100000) (q : Fin 128), i = ix2 p q := ⟨i 0, i 1, eq_ix2 i⟩
  have el1 : ∀ k : Fin 128, lidx_main_v39 (ix2 p q) k = ix2 p k := fun k =>
    funext fun a => Fin.ext (by match a with | ⟨0, _⟩ => rfl | ⟨1, _⟩ => rfl)
  have er1 : ∀ k : Fin 128, ridx_main_v39 (ix2 p q) k = ix2 k q := fun k =>
    funext fun a => Fin.ext (by match a with | ⟨0, _⟩ => rfl | ⟨1, _⟩ => rfl)
  have el2 : ∀ k : Fin 128, lidx_main_v47 (ix2 p q) k = ix2 p k := fun k =>
    funext fun a => Fin.ext (by match a with | ⟨0, _⟩ => rfl | ⟨1, _⟩ => rfl)
  have er2 : ∀ k : Fin 128, ridx_main_v47 (ix2 p q) k = ix2 k q := fun k =>
    funext fun a => Fin.ext (by match a with | ⟨0, _⟩ => rfl | ⟨1, _⟩ => rfl)
  have eb : idx_main_v40 (idx_main_v41 (idx_main_v42 (idx_main_v43 (ix2 p q)))) = ix2 (1 : Fin 3) q :=
    funext fun a => Fin.ext (by
      match a with
      | ⟨0, _⟩ => rfl
      | ⟨1, _⟩ => show q.val % 128 = q.val; exact Nat.mod_eq_of_lt q.isLt)
  rw [val_main_v49_apply, val_main_v48_apply, val_main_v44_apply, val_main_v39_apply, val_main_v43_apply,
    val_main_v42_apply, val_main_v41_apply, val_main_v40_apply, val_main_v47_apply, val_main_call1_v0_apply,
    val_main_call1_cst_apply, eb]
  simp only [el1, er1, el2, er2]
  show _ = Spec.layerAt (val_main_v36 (F := Ideal) x0 x1 x3 x4 x5) (val_main_v26 (F := Ideal) x0 x1 x3 x4 x5) (Spec.mat1 x3) (Spec.row1 x4) (Spec.mat1 x5) p q
  unfold Spec.layerAt
  rw [row1_at, hm3, hm5]
  generalize val_main_v36 (F := Ideal) x0 x1 x3 x4 x5 = A
  generalize val_main_v26 (F := Ideal) x0 x1 x3 x4 x5 = X
  generalize val_main_v38 (F := Ideal) x3 = Wr
  generalize val_main_v46 (F := Ideal) x5 = Wo
  simp only [Ideal.addf_def, Ideal.maximumf_def, Ideal.ofBits_def, Ideal.ofBits_zero_f32]
  rw [add_right_comm]

/-- Round 2's bias row at column q is entry (2, q) of the stacked biases: the two reshapes [1,128] → [128] → [1,128]
    keep the row-major position, and the slice starts at row 2. -/
private theorem row2_at (x4 : (⟨S3x128, .f32⟩ : BufTy).Contents (Elt Ideal)) (q : Fin 128) :
    Spec.row2 x4 (ix2 (0 : Fin 1) q) = x4 (ix2 (2 : Fin 3) q) := by
  unfold Spec.row2
  refine (shapeCast_apply _ Cert.KernelIdeal.Gen.shapeCasts_S128_S1x128 (ix2 (0 : Fin 1) q) (ix1 q) ?_).trans ?_
  · rw [Shape.rowMajor_val_one, Shape.rowMajor_val_two]; show q.val = 0 * 128 + q.val; omega
  refine (shapeCast_apply _ Cert.KernelIdeal.Gen.shapeCasts_S1x128_S128 (ix1 q) (ix2 (0 : Fin 1) q) ?_).trans ?_
  · rw [Shape.rowMajor_val_one, Shape.rowMajor_val_two]; show 0 * 128 + q.val = q.val; omega
  exact extractStridedSlice_apply ![2, 0] x4 Cert.KernelIdeal.Gen.slices_S3x128_S1x128_2_0 (ix2 (0 : Fin 1) q) (ix2 (2 : Fin 3) q) (fun a => match a with
    | ⟨0, _⟩ => rfl
    | ⟨1, _⟩ => by show q.val = 0 + q.val; omega)

/-- Round 2. Entry (p, q): the two products are sums over the 128 contracted coordinates, the broadcast bias is entry
    (2, q) of the stacked biases, and (a + b) + c = (a + c) + b moves the bias behind the second product. -/
theorem layer3_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) :
    val_main_v72 (F := Ideal) x0 x1 x3 x4 x5
      = Spec.layer (val_main_v59 (F := Ideal) x0 x1 x3 x4 x5) (val_main_v49 (F := Ideal) x0 x1 x3 x4 x5) (Spec.mat2 x3) (Spec.row2 x4) (Spec.mat2 x5) := by
  have hm3 : Spec.mat2 x3 = val_main_v61 (F := Ideal) x3 := rfl
  have hm5 : Spec.mat2 x5 = val_main_v69 (F := Ideal) x5 := rfl
  funext i
  obtain ⟨p, q, rfl⟩ : ∃ (p : Fin 100000) (q : Fin 128), i = ix2 p q := ⟨i 0, i 1, eq_ix2 i⟩
  have el1 : ∀ k : Fin 128, lidx_main_v62 (ix2 p q) k = ix2 p k := fun k =>
    funext fun a => Fin.ext (by match a with | ⟨0, _⟩ => rfl | ⟨1, _⟩ => rfl)
  have er1 : ∀ k : Fin 128, ridx_main_v62 (ix2 p q) k = ix2 k q := fun k =>
    funext fun a => Fin.ext (by match a with | ⟨0, _⟩ => rfl | ⟨1, _⟩ => rfl)
  have el2 : ∀ k : Fin 128, lidx_main_v70 (ix2 p q) k = ix2 p k := fun k =>
    funext fun a => Fin.ext (by match a with | ⟨0, _⟩ => rfl | ⟨1, _⟩ => rfl)
  have er2 : ∀ k : Fin 128, ridx_main_v70 (ix2 p q) k = ix2 k q := fun k =>
    funext fun a => Fin.ext (by match a with | ⟨0, _⟩ => rfl | ⟨1, _⟩ => rfl)
  have eb : idx_main_v63 (idx_main_v64 (idx_main_v65 (idx_main_v66 (ix2 p q)))) = ix2 (2 : Fin 3) q :=
    funext fun a => Fin.ext (by
      match a with
      | ⟨0, _⟩ => rfl
      | ⟨1, _⟩ => show q.val % 128 = q.val; exact Nat.mod_eq_of_lt q.isLt)
  rw [val_main_v72_apply, val_main_v71_apply, val_main_v67_apply, val_main_v62_apply, val_main_v66_apply,
    val_main_v65_apply, val_main_v64_apply, val_main_v63_apply, val_main_v70_apply, val_main_call2_v0_apply,
    val_main_call2_cst_apply, eb]
  simp only [el1, er1, el2, er2]
  show _ = Spec.layerAt (val_main_v59 (F := Ideal) x0 x1 x3 x4 x5) (val_main_v49 (F := Ideal) x0 x1 x3 x4 x5) (Spec.mat2 x3) (Spec.row2 x4) (Spec.mat2 x5) p q
  unfold Spec.layerAt
  rw [row2_at, hm3, hm5]
  generalize val_main_v59 (F := Ideal) x0 x1 x3 x4 x5 = A
  generalize val_main_v49 (F := Ideal) x0 x1 x3 x4 x5 = X
  generalize val_main_v61 (F := Ideal) x3 = Wr
  generalize val_main_v69 (F := Ideal) x5 = Wo
  simp only [Ideal.addf_def, Ideal.maximumf_def, Ideal.ofBits_def, Ideal.ofBits_zero_f32]
  rw [add_right_comm]

end Cert.ReferenceIdeal.Bridge

end
-- ==== Proof.RefPool.lean ====
/-
  The reference's per-graph sums and counts are the specification's. The reference scatters: row n of the features is
  added into row (graph id of n), read signed, when that is one of the 64 rows, and into nothing otherwise; the counts
  scatter ones the same way. Entry (g, d) therefore collects exactly the nodes whose id is g, which is the sum of
  [id n = g]·x[n,d] over all nodes, the terms of the other nodes being zero.
-/
import proofs.«415848_j10471130267877_1_alg».proof.Proof.Gen.ReferenceIdeal.Read
import proofs.«415848_j10471130267877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Idealize.ShloMosaic Idealize.ShloMosaic.TcCoe Idealize.ShloMosaic.ValueIdx Idealize.SL.Sem Cert.ReferenceIdeal Cert.ReferenceIdeal.Gen Cert.ReferenceIdeal.Read
open scoped BigOperators

/-- An update lands on operand index i exactly when, on every axis, its window start plus its window coordinate is
    i's coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have h0 := Option.some.inj h
      intro a
      have h1 : (d.start j idx a + (d.window j a : Int)).toNat = (i a).val := congrArg Fin.val (congrFun h0 a)
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    apply Fin.ext
    show (d.start j idx a + (d.window j a : Int)).toNat = (i a).val
    have h1 := h a
    omega

/-- The sums' scatter: operand 64×128, one index column, updates 100000×128 whose axis 1 is the window. -/
private abbrev dS := scatter_S64x128_S100000x1_S100000x128_1_0_0_1

/-- Axis 0 of the sums' operand is inserted: no window coordinate. -/
private theorem dS_window0 (j : S100000x128.Idx) : dS.window j 0 = 0 := by
  rfl

/-- Axis 1 of the sums' operand carries the update's column. -/
private theorem dS_window1 (j : S100000x128.Idx) : dS.window j 1 = (j 1).val := by
  rfl

/-- No index component names axis 1: the window starts at 0 there. -/
private theorem dS_start1 (j : S100000x128.Idx) (idx : IVec S100000x1 32) : dS.start j idx 1 = 0 := by
  rfl

/-- On axis 0 the window starts at the update row's id, read signed. -/
private theorem dS_start0 (j : S100000x128.Idx) (idx : IVec S100000x1 32) :
    dS.start j idx 0 = (idx (ix2 (j 0) (0 : Fin 1))).toInt := by
  unfold ScatterDims.start
  rw [dif_pos (by decide)]
  congr 2
  funext b
  match b with
  | ⟨0, _⟩ => rfl
  | ⟨1, _⟩ => rfl

/-- For the sums' scatter: update (n, d') lands on (g, e) exactly when node n's id, read signed, is g and d' = e. -/
private theorem dS_resultIdx (idx : IVec S100000x1 32) (n : Fin 100000) (d' : Fin 128) (g : Fin 64) (e : Fin 128) :
    dS.resultIdx? (ix2 n d') idx = some (ix2 g e) ↔ ((idx (ix2 n (0 : Fin 1))).toInt = (g.val : Int) ∧ d' = e) := by
  rw [resultIdx?_eq_some_iff]
  constructor
  · intro h
    have h0 := h 0
    have h1 := h 1
    rw [dS_start0, dS_window0] at h0
    rw [dS_start1, dS_window1] at h1
    refine ⟨by simpa using h0, Fin.ext ?_⟩
    have : ((d'.val : Int)) = (e.val : Int) := by simpa using h1
    exact_mod_cast this
  · rintro ⟨h0, rfl⟩ a
    match a with
    | ⟨0, _⟩ =>
      show dS.start _ idx 0 + (dS.window _ 0 : Int) = _
      rw [dS_start0, dS_window0]; simpa using h0
    | ⟨1, _⟩ =>
      show dS.start _ idx 1 + (dS.window _ 1 : Int) = _
      rw [dS_start1, dS_window1]; simp

/-- The ids column of the reference, entry by entry. -/
private theorem v74_at (x2 : (⟨S100000, .i32⟩ : BufTy).Contents (Elt Ideal)) (n : Fin 100000) :
    val_main_v74 (F := Ideal) x2 (ix2 n (0 : Fin 1)) = x2 (ix1 n) := by
  rw [val_main_v74_apply]
  congr 1
  funext a
  match a with
  | ⟨0, _⟩ => rfl

/-- The ids column of the specification, entry by entry. -/
private theorem idCol_at (x2 : IVec S100000 32) (n : Fin 100000) :
    Spec.idCol x2 (ix2 n (0 : Fin 1)) = x2 (ix1 n) := by
  unfold Spec.idCol
  refine shapeCast_apply _ _ _ _ ?_
  rw [Shape.rowMajor_val_two, Shape.rowMajor_val_one]
  show n.val = n.val * 1 + 0
  omega

/-- One node's share of entry (g, e): among its 128 updates only the one on column e can land there, and it does
    when the node's id is g. -/
private theorem inner_sum (P : Prop) [Decidable P] (f : Fin 128 → EReal) (e : Fin 128) :
    (∑ d' : Fin 128, if (P ∧ d' = e) then f d' else 0) = if P then f e else 0 := by
  by_cases hP : P
  · simp [hP]
  · simp [hP]

/-- The per-graph sums. -/
theorem sums_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) :
    val_main_v75 (F := Ideal) x0 x1 x2 x3 x4 x5 = Spec.sums (val_main_v72 (F := Ideal) x0 x1 x3 x4 x5) (Spec.idCol x2) := by
  unfold val_main_v75
  generalize val_main_v72 (F := Ideal) x0 x1 x3 x4 x5 = X
  funext i
  obtain ⟨g, e, rfl⟩ : ∃ g e, i = ix2 g e := ⟨i 0, i 1, eq_ix2 i⟩
  show val_main_v73 (F := Ideal) (ix2 g e)
      + ∑ j ∈ Finset.univ.filter (fun j => dS.resultIdx? j (val_main_v74 (F := Ideal) x2) = some (ix2 g e)), X j
    = ∑ n : Fin 100000, Spec.hot (Spec.idCol x2 (ix2 n (0 : Fin 1))) g * X (ix2 n e)
  rw [val_main_v73_apply, val_main_cst_7_apply, Ideal.ofBits_def, Ideal.ofBits_zero_f32, zero_add, Finset.sum_filter,
    sum_idx2]
  refine Finset.sum_congr rfl fun n _ => ?_
  simp only [dS_resultIdx]
  rw [inner_sum, v74_at, idCol_at]
  unfold Spec.hot
  split <;> simp

/-- The counts' scatter: operand 64, one index column, updates 100000, no window axis. -/
private abbrev dC := scatter_S64_S100000x1_S100000_n_0_0_1

/-- Axis 0 of the counts' operand is inserted: no window coordinate. -/
private theorem dC_window0 (j : S100000.Idx) : dC.window j 0 = 0 := by
  rfl

/-- On axis 0 the window starts at the update's id, read signed. -/
private theorem dC_start0 (j : S100000.Idx) (idx : IVec S100000x1 32) :
    dC.start j idx 0 = (idx (ix2 (j 0) (0 : Fin 1))).toInt := by
  unfold ScatterDims.start
  rw [dif_pos (by decide)]
  congr 2
  funext b
  match b with
  | ⟨0, _⟩ => rfl
  | ⟨1, _⟩ => rfl

/-- For the counts' scatter: update n lands on g exactly when node n's id, read signed, is g. -/
private theorem dC_resultIdx (idx : IVec S100000x1 32) (n : Fin 100000) (g : Fin 64) :
    dC.resultIdx? (ix1 n) idx = some (ix1 g) ↔ (idx (ix2 n (0 : Fin 1))).toInt = (g.val : Int) := by
  rw [resultIdx?_eq_some_iff]
  constructor
  · intro h
    have h0 := h 0
    rw [dC_start0, dC_window0] at h0
    simpa using h0
  · intro h0 a
    match a with
    | ⟨0, _⟩ =>
      show dC.start _ idx 0 + (dC.window _ 0 : Int) = _
      rw [dC_start0, dC_window0]; simpa using h0

/-- A sum over a rank-1 index is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun a => rfl⟩ _ _ (fun i => congrArg f (eq_ix1 i))

/-- The bits 0x3F800000 are the float one. -/
private theorem ofBits_one_f32 : Ideal.ofBits .f32 0x3F800000#32 = 1 := by
  simp [Ideal.ofBits, Ideal.ieee]
  rw [← EReal.coe_mul]
  norm_num

/-- The ids column of the counts' scatter, entry by entry. -/
private theorem v78_at (x2 : (⟨S100000, .i32⟩ : BufTy).Contents (Elt Ideal)) (n : Fin 100000) :
    val_main_v78 (F := Ideal) x2 (ix2 n (0 : Fin 1)) = x2 (ix1 n) := by
  rw [val_main_v78_apply]
  congr 1
  funext a
  match a with
  | ⟨0, _⟩ => rfl

/-- The per-graph counts, entry by entry. -/
theorem cnts_eq (x2 : (⟨S100000, .i32⟩ : BufTy).Contents (Elt Ideal)) (g : Fin 64) :
    val_main_v79 (F := Ideal) x2 (ix1 g) = Spec.cnts (Spec.idCol x2) (ix2 (0 : Fin 1) g) := by
  unfold val_main_v79
  show val_main_v77 (F := Ideal) (ix1 g)
      + ∑ j ∈ Finset.univ.filter (fun j => dC.resultIdx? j (val_main_v78 (F := Ideal) x2) = some (ix1 g)),
          val_main_v76 (F := Ideal) j
    = ∑ n : Fin 100000, Spec.hot (Spec.idCol x2 (ix2 n (0 : Fin 1))) g
  rw [val_main_v77_apply, val_main_cst_9_apply, Ideal.ofBits_def, Ideal.ofBits_zero_f32, zero_add, Finset.sum_filter,
    sum_idx1]
  refine Finset.sum_congr rfl fun n _ => ?_
  rw [val_main_v76_apply, val_main_cst_8_apply, Ideal.ofBits_def, ofBits_one_f32]
  simp only [dC_resultIdx]
  rw [v78_at, idCol_at]
  rfl

end Cert.ReferenceIdeal.Bridge

end
-- ==== Proof.RefHead.lean ====
/-
  The reference's last steps are the specification's: the sums divided by max(count, 1), the count read per graph —
  as an entry of a vector of 64 on one side, of a row re-laid as a column on the other — then the product with the
  128×16 matrix, the plain sum over the 128 contracted coordinates on both sides, and the bias row.
-/
import proofs.«415848_j10471130267877_1_alg».proof.Proof.Gen.ReferenceIdeal.Read
import proofs.«415848_j10471130267877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Idealize.ShloMosaic Idealize.ShloMosaic.TcCoe Idealize.ShloMosaic.ValueIdx Idealize.SL.Sem Cert.ReferenceIdeal Cert.ReferenceIdeal.Gen Cert.ReferenceIdeal.Read
open scoped BigOperators

/-- The column of denominators at one entry: the reference's max(count, 1), read from the vector of 64 counts, is the
    specification's, read from the row of counts re-laid as a column.  Entry (g, 0) of the column is entry g of the
    row, both at flat position g. -/
private theorem col_at (x2 : (⟨S100000, .i32⟩ : BufTy).Contents (Elt Ideal))
    (C : FVec Ideal Cert.KernelIdeal.S1x64 .f32)
    (hC : ∀ g : Fin 64, val_main_v79 (F := Ideal) x2 (ix1 g) = C (ix2 (0 : Fin 1) g))
    (g : Fin 64) (z : Fin 1) :
    val_main_v82 (F := Ideal) x2 (ix2 g z)
      = (maximumf (shapeCast _ C Cert.KernelIdeal.Gen.shapeCasts_S1x64_S64x1)
          (broadcastInDim Cert.KernelIdeal.S64x1 ![] Cert.KernelIdeal.Gen.bcast_S_S64x1
            (constant (F := Ideal) Cert.KernelIdeal.S_ .f32 0x3F800000#32))) (ix2 g z) := by
  have e82 : idx_main_v82 (ix2 g z) = ix1 g := funext fun a => Fin.ext (by match a with | ⟨0, _⟩ => rfl)
  have hz : z.val = 0 := by omega
  rw [val_main_v82_apply, val_main_v81_apply, val_main_v80_apply, val_main_cst_10_apply, e82, hC g, maximumf_apply]
  rw [shapeCast_apply C Cert.KernelIdeal.Gen.shapeCasts_S1x64_S64x1 (ix2 g z) (ix2 (0 : Fin 1) g)
      (by rw [Shape.rowMajor_val_two, Shape.rowMajor_val_two]; show 0 * 64 + g.val = g.val * 1 + z.val; omega)]
  rw [broadcastInDim_apply _ Cert.KernelIdeal.Gen.bcast_S_S64x1 (constant (F := Ideal) Cert.KernelIdeal.S_ .f32 0x3F800000#32)
      (ix2 g z) ix0 (fun a => a.elim0)]
  rfl

/-- The whole column of denominators. -/
private theorem col_eq (x2 : (⟨S100000, .i32⟩ : BufTy).Contents (Elt Ideal))
    (C : FVec Ideal Cert.KernelIdeal.S1x64 .f32)
    (hC : ∀ g : Fin 64, val_main_v79 (F := Ideal) x2 (ix1 g) = C (ix2 (0 : Fin 1) g)) :
    val_main_v82 (F := Ideal) x2
      = maximumf (shapeCast _ C Cert.KernelIdeal.Gen.shapeCasts_S1x64_S64x1)
          (broadcastInDim Cert.KernelIdeal.S64x1 ![] Cert.KernelIdeal.Gen.bcast_S_S64x1
            (constant (F := Ideal) Cert.KernelIdeal.S_ .f32 0x3F800000#32)) := by
  funext i
  rw [eq_ix2 i]
  exact col_at x2 C hC _ _

/-- The class scores, given the counts as the row `C`. -/
theorem head_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S128x16, .f32⟩ : BufTy).Contents (Elt Ideal)) (x7 : (⟨S16, .f32⟩ : BufTy).Contents (Elt Ideal))
    (C : FVec Ideal Cert.KernelIdeal.S1x64 .f32)
    (hC : ∀ g : Fin 64, val_main_v79 (F := Ideal) x2 (ix1 g) = C (ix2 (0 : Fin 1) g)) :
    val_main_v88 (F := Ideal) x0 x1 x2 x3 x4 x5 x6 x7
      = Spec.head (val_main_v75 (F := Ideal) x0 x1 x2 x3 x4 x5) C x6 x7 := by
  -- Open the reference's last operations down to the per-graph sums and the column of denominators; replace the
  -- column by the specification's; what is left is the specification's own chain of operations on the same operands.
  unfold val_main_v88 val_main_v87 val_main_v86 val_main_v85 val_main_v84 val_main_v83
  rw [col_eq x2 C hC]
  generalize val_main_v75 (F := Ideal) x0 x1 x2 x3 x4 x5 = S
  unfold Spec.head
  rfl

end Cert.ReferenceIdeal.Bridge

end
-- ==== Proof.RefValue.lean ====
/-
  The reference's result is the specification's function of the eight arguments: its stages, each rewritten to the
  specification's, from the last to the first.
-/
import proofs.«415848_j10471130267877_1_alg».proof.Proof.RefEdges
import proofs.«415848_j10471130267877_1_alg».proof.Proof.RefLayers
import proofs.«415848_j10471130267877_1_alg».proof.Proof.RefPool
import proofs.«415848_j10471130267877_1_alg».proof.Proof.RefHead

noncomputable section

namespace Cert.ReferenceIdeal.Bridge

open Idealize.ShloMosaic Idealize.ShloMosaic.TcCoe Idealize.ShloMosaic.ValueIdx Idealize.SL.Sem Cert.ReferenceIdeal Cert.ReferenceIdeal.Gen Cert.ReferenceIdeal.Read
open scoped BigOperators

/-- The reference's composed term is the specification's function. -/
theorem out_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S128x16, .f32⟩ : BufTy).Contents (Elt Ideal)) (x7 : (⟨S16, .f32⟩ : BufTy).Contents (Elt Ideal)) :
    val_main_v88 (F := Ideal) x0 x1 x2 x3 x4 x5 x6 x7 = Spec.out x0 x1 x2 x3 x4 x5 x6 x7 := by
  rw [head_eq x0 x1 x2 x3 x4 x5 x6 x7 (Spec.cnts (Spec.idCol x2)) (cnts_eq x2), sums_eq, layer3_eq, agg3_eq, layer2_eq,
    agg2_eq, layer1_eq, agg1_eq]
  rfl

end Cert.ReferenceIdeal.Bridge

end
-- ==== Proof.lean ====
/-
  Three rounds of message passing on a graph of 100000 nodes, a mean over each of 64 graphs and one affine map to 16
  classes, computed two ways: with the dense part of each round in blocks of 5000 nodes and the per-graph sums as a
  product with the one-hot matrix of the graph ids accumulated over 20 blocks; and with whole-array products and a
  scatter by graph id. Over the extended reals both are one function of the eight arguments (Proof/Spec.lean):

    * the edge gather and scatter-add and the slices of the stacked parameters are the same host operations in both;
    * a round is max((A·W_rel + X·W_root) + b, 0) in one and max((A·W_rel + b) + X·W_root, 0) in the other — addition of
      extended reals is commutative and associative, a product into a zero accumulator is the plain sum over the
      contracted coordinates, and the narrowing of an operand to a shorter float format is the identity —, and the 20
      row blocks tile the nodes;
    * the per-graph sum at (g, d) is ∑ₙ [id n = g]·x[n,d] in one, accumulated block by block, and in the other the sum
      of the rows the scatter lands on row g, which are the nodes whose id read signed is g (a node whose id is no graph
      is added nowhere, in both); the counts likewise;
    * the division by max(count, 1) and the last affine map are the same operations, the counts read as a column on
      one side and as a vector on the other.

  The frames of the two kernels' programs are the generated ones; the reference's is its generated run with the result
  dropped; the idealization changed no operation.
-/
import proofs.«415848_j10471130267877_1_alg».proof.Defs
import proofs.«415848_j10471130267877_1_alg».proof.Proof.Gen.Kernel
import proofs.«415848_j10471130267877_1_alg».proof.Proof.Gen.Kernel.Skeleton
import proofs.«415848_j10471130267877_1_alg».proof.Proof.Gen.Kernel.Launch
import proofs.«415848_j10471130267877_1_alg».proof.Proof.Gen.Kernel.Points
import proofs.«415848_j10471130267877_1_alg».proof.Proof.Gen.Kernel.Frame
import proofs.«415848_j10471130267877_1_alg».proof.Proof.Gen.KernelIdeal
import proofs.«415848_j10471130267877_1_alg».proof.Proof.Gen.KernelIdeal.Skeleton
import proofs.«415848_j10471130267877_1_alg».proof.Proof.Gen.KernelIdeal.Launch
import proofs.«415848_j10471130267877_1_alg».proof.Proof.Gen.KernelIdeal.Points
import proofs.«415848_j10471130267877_1_alg».proof.Proof.Gen.KernelIdeal.Frame
import proofs.«415848_j10471130267877_1_alg».proof.Proof.Gen.ReferenceIdeal
import proofs.«415848_j10471130267877_1_alg».proof.Proof.Gen.ReferenceIdeal.Run
import proofs.«415848_j10471130267877_1_alg».proof.Proof.Gen.ReferenceIdeal.Read
import proofs.«415848_j10471130267877_1_alg».proof.Proof.Gen.Pre_finite_inputs
import proofs.«415848_j10471130267877_1_alg».proof.Proof.KernelRun
import proofs.«415848_j10471130267877_1_alg».proof.Proof.KernelValue
import proofs.«415848_j10471130267877_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's function of the arguments in their result buffer: the kernel's program
    by its run read through its four parts, the reference by its run's composed term; the two argument lists agree. -/
theorem algebraic : Cert.algebraic_KernelIdeal_ReferenceIdeal := by
  intro m ρ m' ρ' _ hagree
  refine ⟨fun c => Cert.Spec.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.out_eq m ρ c), (h c).2⟩)
      (Cert.KernelIdeal.RunValue.run_val (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, Cert.ReferenceIdeal.Bridge.out_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
